-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S10240x128 : Shape := ⟨2, ![10240, 128]⟩
abbrev S512x128 : Shape := ⟨2, ![512, 128]⟩
abbrev S_ : Shape := ⟨0, ![]⟩

class Facts : Prop where
  bcast_S_S10240x128 : S_.BroadcastsInDim S10240x128 (![] : Fin 0 → Fin S10240x128.rank)
  reducesTo_S10240x128_S_d0_1 : S10240x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  reducesTo_S_S_d : S_.ReducesTo [] S_

variable [Facts]

def fn {F : FTy → Type} [FloatOps F] (main_arg0 : IVec S8x8192 32) (main_arg1 : FVec F S10240x128 .f32) (main_arg2 : FVec F S512x128 .f32) (main_arg3 : FVec F S_ .f32) : IVec S_ 1 :=
  let main_v0 : FVec F S10240x128 .f32 := Host.absf main_arg1
  let main_cst : FVec F S_ .f32 := constant S_ .f32 0x7F800000#32
  let main_v1 : FVec F S10240x128 .f32 := broadcastInDim S10240x128 ![] bcast_S_S10240x128 main_cst
  let main_v2 : IVec S10240x128 1 := cmpf .olt main_v0 main_v1
  let main_c : IVec S_ 1 := constantI S_ 1 1#1
  let main_v3 : IVec S_ 1 := (fun x v => Host.reduce IntOp.andi x v reducesTo_S10240x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8x8192 : Shape := ⟨2, ![8, 8192]⟩
abbrev S10240x128 : Shape := ⟨2, ![10240, 128]⟩
abbrev S512x128 : Shape := ⟨2, ![512, 128]⟩
abbrev S_ : Shape := ⟨0, ![]⟩
abbrev S8x8191 : Shape := ⟨2, ![8, 8191]⟩
abbrev S8x1 : Shape := ⟨2, ![8, 1]⟩
abbrev S65536x1 : Shape := ⟨2, ![65536, 1]⟩
abbrev S2560x128 : Shape := ⟨2, ![2560, 128]⟩
abbrev S2560x512 : Shape := ⟨2, ![2560, 512]⟩
abbrev S128x512 : Shape := ⟨2, ![128, 512]⟩
abbrev S65536x512 : Shape := ⟨2, ![65536, 512]⟩
abbrev S1024x1 : Shape := ⟨2, ![1024, 1]⟩
abbrev S1024x512 : Shape := ⟨2, ![1024, 512]⟩
abbrev S1x2560 : Shape := ⟨2, ![1, 2560]⟩
abbrev S1024x2560 : Shape := ⟨2, ![1024, 2560]⟩
abbrev S1024x128 : Shape := ⟨2, ![1024, 128]⟩
abbrev S8x8192x512 : Shape := ⟨3, ![8, 8192, 512]⟩

abbrev nBuf : Space → Nat
  | .hbm => 91
  | .vmem => 8
  | .smem => 0
  | _ => 0

abbrev bufTy : (tb : Table) → Fin (tcTables nBuf tb) → BufTy
  | .hbm, ⟨0, _⟩ => ⟨S8x8192, .i32⟩
  | .hbm, ⟨1, _⟩ => ⟨S10240x128, .f32⟩
  | .hbm, ⟨2, _⟩ => ⟨S512x128, .f32⟩
  | .hbm, ⟨3, _⟩ => ⟨S_, .f32⟩
  | .hbm, ⟨4, _⟩ => ⟨S8x8191, .i32⟩
  | .hbm, ⟨5, _⟩ => ⟨S_, .i32⟩
  | .hbm, ⟨6, _⟩ => ⟨S8x8191, .i32⟩
  | .hbm, ⟨7, _⟩ => ⟨S8x8191, .i32⟩
  | .hbm, ⟨8, _⟩ => ⟨S8x8191, .i32⟩
  | .hbm, ⟨9, _⟩ => ⟨S_, .i32⟩
  | .hbm, ⟨10, _⟩ => ⟨S8x8191, .i32⟩
  | .hbm, ⟨11, _⟩ => ⟨S8x8191, .i32⟩
  | .hbm, ⟨12, _⟩ => ⟨S8x8191, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S8x8191, .i32⟩
  | .hbm, ⟨20, _⟩ => ⟨S8x8191, .i32⟩
  | .hbm, ⟨21, _⟩ => ⟨S_, .i32⟩
  | .hbm, ⟨22, _⟩ => ⟨S8x8191, .i32⟩
  | .hbm, ⟨23, _⟩ => ⟨S8x8191, .i1⟩
  | .hbm, ⟨24, _⟩ => ⟨S_, .i32⟩
  | .hbm, ⟨25, _⟩ => ⟨S8x8191, .i32⟩
  | .hbm, ⟨26, _⟩ => ⟨S8x8191, .i1⟩
  | .hbm, ⟨27, _⟩ => ⟨S_, .i32⟩
  | .hbm, ⟨28, _⟩ => ⟨S_, .i1⟩
  | .hbm, ⟨29, _⟩ => ⟨S8x8191, .i1⟩
  | .hbm, ⟨30, _⟩ => ⟨S8x8191, .i1⟩
  | .hbm, ⟨31, _⟩ => ⟨S8x8191, .i1⟩
  | .hbm, ⟨32, _⟩ => ⟨S8x8191, .i32⟩
  | .hbm, ⟨33, _⟩ => ⟨S8x8191, .i32⟩
  | .hbm, ⟨34, _⟩ => ⟨S8x8191, .i32⟩
  | .hbm, ⟨35, _⟩ => ⟨S_, .i32⟩
  | .hbm, ⟨36, _⟩ => ⟨S8x1, .i32⟩
  | .hbm, ⟨37, _⟩ => ⟨S8x8192, .i32⟩
  | .hbm, ⟨38, _⟩ => ⟨S65536x1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S65536x1, .i32⟩
  | .hbm, ⟨46, _⟩ => ⟨S65536x1, .i32⟩
  | .hbm, ⟨47, _⟩ => ⟨S_, .i32⟩
  | .hbm, ⟨48, _⟩ => ⟨S65536x1, .i32⟩
  | .hbm, ⟨49, _⟩ => ⟨S65536x1, .i1⟩
  | .hbm, ⟨50, _⟩ => ⟨S_, .i32⟩
  | .hbm, ⟨51, _⟩ => ⟨S65536x1, .i32⟩
  | .hbm, ⟨52, _⟩ => ⟨S65536x1, .i1⟩
  | .hbm, ⟨53, _⟩ => ⟨S_, .i32⟩
  | .hbm, ⟨54, _⟩ => ⟨S_, .i1⟩
  | .hbm, ⟨55, _⟩ => ⟨S65536x1, .i1⟩
  | .hbm, ⟨56, _⟩ => ⟨S65536x1, .i1⟩
  | .hbm, ⟨57, _⟩ => ⟨S65536x1, .i1⟩
  | .hbm, ⟨58, _⟩ => ⟨S65536x1, .i32⟩
  | .hbm, ⟨59, _⟩ => ⟨S65536x1, .i32⟩
  | .hbm, ⟨60, _⟩ => ⟨S65536x1, .i32⟩
  | .hbm, ⟨61, _⟩ => ⟨S_, .i32⟩
  | .hbm, ⟨62, _⟩ => ⟨S_, .i32⟩
  | .hbm, ⟨63, _⟩ => ⟨S65536x1, .i32⟩
  | .hbm, ⟨64, _⟩ => ⟨S65536x1, .i32⟩
  | .hbm, ⟨65, _⟩ => ⟨S65536x1, .i32⟩
  | .hbm, ⟨66, _⟩ => ⟨S_, .i32⟩
  | .hbm, ⟨67, _⟩ => ⟨S65536x1, .i32⟩
  | .hbm, ⟨68, _⟩ => ⟨S65536x1, .i1⟩
  | .hbm, ⟨69, _⟩ => ⟨S65536x1, .i32⟩
  | .hbm, ⟨70, _⟩ => ⟨S65536x1, .i32⟩
  | .hbm, ⟨71, _⟩ => ⟨S_, .i32⟩
  | .hbm, ⟨72, _⟩ => ⟨S65536x1, .i32⟩
  | .hbm, ⟨73, _⟩ => ⟨S65536x1, .i1⟩
  | .hbm, ⟨74, _⟩ => ⟨S65536x1, .i1⟩
  | .hbm, ⟨75, _⟩ => ⟨S_, .i32⟩
  | .hbm, ⟨76, _⟩ => ⟨S65536x1, .i32⟩
  | .hbm, ⟨77, _⟩ => ⟨S65536x1, .i32⟩
  | .hbm, ⟨78, _⟩ => ⟨S65536x1, .i32⟩
  | .hbm, ⟨79, _⟩ => ⟨S10240x128, .bf16⟩
  | .hbm, ⟨80, _⟩ => ⟨S2560x128, .bf16⟩
  | .hbm, ⟨81, _⟩ => ⟨S2560x128, .bf16⟩
  | .hbm, ⟨82, _⟩ => ⟨S2560x128, .bf16⟩
  | .hbm, ⟨83, _⟩ => ⟨S2560x128, .bf16⟩
  | .hbm, ⟨84, _⟩ => ⟨S2560x512, .bf16⟩
  | .hbm, ⟨85, _⟩ => ⟨S128x512, .f32⟩
  | .hbm, ⟨86, _⟩ => ⟨S128x512, .f32⟩
  | .hbm, ⟨87, _⟩ => ⟨S128x512, .f32⟩
  | .hbm, ⟨88, _⟩ => ⟨S128x512, .bf16⟩
  | .hbm, ⟨89, _⟩ => ⟨S65536x512, .f32⟩
  | .hbm, ⟨90, _⟩ => ⟨S8x8192x512, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x1, .i32⟩
  | .local _ .vmem, ⟨4, _⟩ => ⟨S2560x512, .bf16⟩
  | .local _ .vmem, ⟨5, _⟩ => ⟨S128x512, .bf16⟩
  | .local _ .vmem, ⟨6, _⟩ => ⟨S1024x512, .f32⟩
  | .local _ .vmem, ⟨7, _⟩ => ⟨S1024x512, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v11 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8x8192_S8x8191_0_1 : S8x8192.Slices ![0, 1] S8x8191
  bcast_S_S8x8191 : S_.BroadcastsInDim S8x8191 (![] : Fin 0 → Fin S8x8191.rank)
  slices_S8x8192_S8x8191_0_0 : S8x8192.Slices ![0, 0] S8x8191
  bcast_S_S8x1 : S_.BroadcastsInDim S8x1 (![] : Fin 0 → Fin S8x1.rank)
  concatenates_S8x1_S8x8191_S8x8192_d1 : Shape.Concatenates [S8x1, S8x8191] S8x8192 1
  shapeCasts_S8x8192_S65536x1 : S8x8192.ShapeCasts S65536x1
  bcast_S_S65536x1 : S_.BroadcastsInDim S65536x1 (![] : Fin 0 → Fin S65536x1.rank)
  bitsLt_bf16_f32 : FTy.bits .bf16 < FTy.bits .f32
  slices_S10240x128_S2560x128_0_0 : S10240x128.Slices ![0, 0] S2560x128
  slices_S10240x128_S2560x128_2560_0 : S10240x128.Slices ![2560, 0] S2560x128
  slices_S10240x128_S2560x128_5120_0 : S10240x128.Slices ![5120, 0] S2560x128
  slices_S10240x128_S2560x128_7680_0 : S10240x128.Slices ![7680, 0] S2560x128
  concatenates_S2560x128_S2560x128_S2560x128_S2560x128_S2560x512_d1 : Shape.Concatenates [S2560x128, S2560x128, S2560x128, S2560x128] S2560x512 1
  transposes_S512x128_S128x512_1_0 : S512x128.Transposes [1, 0] S128x512
  bcast_S_S128x512 : S_.BroadcastsInDim S128x512 (![] : Fin 0 → Fin S128x512.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x2560_d1_w32 : S1x2560.Iotas .tc 32 [1]
  broadcasts_S1024x1_S1024x2560 : S1024x1.Broadcasts S1024x2560
  broadcasts_S1x2560_S1024x2560 : S1x2560.Broadcasts S1024x2560
  natLt_1_32 : 1 < 32
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  slices_S1024x512_o0_0_S1024x128 : S1024x512.Slices ![0, 0] S1024x128
  broadcasts_S1024x1_S1024x128 : S1024x1.Broadcasts S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1024x512_S1024x512_0_0 : ∀ a, (![0, 0] : Fin 2 → Nat) a + S1024x512.size a ≤ S1024x512.size a
  h_S1024x512 : 0 < S1024x512.numel
  shapeCasts_S65536x512_S8x8192x512 : S65536x512.ShapeCasts S8x8192x512
  dot_S1024x2560_S2560x512_S1024x512_1_0_0_1_n_n_wf : DotDims.WF S1024x2560 S2560x512 S1024x512 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .i32 = 32 ∨ (Rect.block (s := S65536x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2560x512.size a ≤ S2560x512.size a
  hwx0_2 : ∀ i : grid0.Coords, EltTy.bits .bf16 = 32 ∨ (Rect.block (s := S2560x512) S2560x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S65536x512.size a
  hwx0_4 : ∀ i : grid0.Coords, EltTy.bits .f32 = 32 ∨ (Rect.block (s := S65536x512) S1024x512.size (cc0_transform_4 i) (hinb0_4 i)).WholeWords (EltTy.packing .f32)

variable [Facts₀]

def dot_S1024x2560_S2560x512_S1024x512_1_0_0_1_n_n : DotDims S1024x2560 S2560x512 S1024x512 where
  lhsContracting := [1]
  rhsContracting := [0]
  lhsNonContracting := [0]
  rhsNonContracting := [1]
  lhsBatch := []
  rhsBatch := []
  wf := dot_S1024x2560_S2560x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v11) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2560x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192 : Shape := ⟨2, ![8, 8192]⟩
abbrev S10240x128 : Shape := ⟨2, ![10240, 128]⟩
abbrev S512x128 : Shape := ⟨2, ![512, 128]⟩
abbrev S_ : Shape := ⟨0, ![]⟩
abbrev S8x8191 : Shape := ⟨2, ![8, 8191]⟩
abbrev S8x1 : Shape := ⟨2, ![8, 1]⟩
abbrev S8x8192x1 : Shape := ⟨3, ![8, 8192, 1]⟩
abbrev S8x8192x128 : Shape := ⟨3, ![8, 8192, 128]⟩
abbrev S8x8192x512 : Shape := ⟨3, ![8, 8192, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S10240x128, .f32⟩
  | .hbm, ⟨2, _⟩ => ⟨S512x128, .f32⟩
  | .hbm, ⟨3, _⟩ => ⟨S_, .f32⟩
  | .hbm, ⟨4, _⟩ => ⟨S8x8191, .i32⟩
  | .hbm, ⟨5, _⟩ => ⟨S_, .i32⟩
  | .hbm, ⟨6, _⟩ => ⟨S8x8191, .i32⟩
  | .hbm, ⟨7, _⟩ => ⟨S8x8191, .i32⟩
  | .hbm, ⟨8, _⟩ => ⟨S8x8191, .i32⟩
  | .hbm, ⟨9, _⟩ => ⟨S_, .i32⟩
  | .hbm, ⟨10, _⟩ => ⟨S8x8191, .i32⟩
  | .hbm, ⟨11, _⟩ => ⟨S8x8191, .i32⟩
  | .hbm, ⟨12, _⟩ => ⟨S8x8191, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S8x8191, .i32⟩
  | .hbm, ⟨20, _⟩ => ⟨S8x8191, .i32⟩
  | .hbm, ⟨21, _⟩ => ⟨S_, .i32⟩
  | .hbm, ⟨22, _⟩ => ⟨S8x8191, .i32⟩
  | .hbm, ⟨23, _⟩ => ⟨S8x8191, .i1⟩
  | .hbm, ⟨24, _⟩ => ⟨S_, .i32⟩
  | .hbm, ⟨25, _⟩ => ⟨S8x8191, .i32⟩
  | .hbm, ⟨26, _⟩ => ⟨S8x8191, .i1⟩
  | .hbm, ⟨27, _⟩ => ⟨S_, .i32⟩
  | .hbm, ⟨28, _⟩ => ⟨S_, .i1⟩
  | .hbm, ⟨29, _⟩ => ⟨S8x8191, .i1⟩
  | .hbm, ⟨30, _⟩ => ⟨S8x8191, .i1⟩
  | .hbm, ⟨31, _⟩ => ⟨S8x8191, .i1⟩
  | .hbm, ⟨32, _⟩ => ⟨S8x8191, .i32⟩
  | .hbm, ⟨33, _⟩ => ⟨S8x8191, .i32⟩
  | .hbm, ⟨34, _⟩ => ⟨S8x8191, .i32⟩
  | .hbm, ⟨35, _⟩ => ⟨S_, .i32⟩
  | .hbm, ⟨36, _⟩ => ⟨S8x1, .i32⟩
  | .hbm, ⟨37, _⟩ => ⟨S8x8192, .i32⟩
  | .hbm, ⟨38, _⟩ => ⟨S_, .i32⟩
  | .hbm, ⟨39, _⟩ => ⟨S8x8192, .i32⟩
  | .hbm, ⟨40, _⟩ => ⟨S8x8192, .i1⟩
  | .hbm, ⟨41, _⟩ => ⟨S_, .i32⟩
  | .hbm, ⟨42, _⟩ => ⟨S8x8192, .i32⟩
  | .hbm, ⟨43, _⟩ => ⟨S8x8192, .i32⟩
  | .hbm, ⟨44, _⟩ => ⟨S8x8192, .i32⟩
  | .hbm, ⟨45, _⟩ => ⟨S8x8192x1, .i32⟩
  | .hbm, ⟨46, _⟩ => ⟨S8x8192x128, .f32⟩
  | .hbm, ⟨47, _⟩ => ⟨S8x8192x512, .f32⟩
  | .hbm, ⟨48, _⟩ => ⟨S8x8192x512, .f32⟩
  | .hbm, ⟨49, _⟩ => ⟨S8x8192x512, .f32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_c_4 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  slices_S8x8192_S8x8191_0_1 : S8x8192.Slices ![0, 1] S8x8191
  bcast_S_S8x8191 : S_.BroadcastsInDim S8x8191 (![] : Fin 0 → Fin S8x8191.rank)
  slices_S8x8192_S8x8191_0_0 : S8x8192.Slices ![0, 0] S8x8191
  bcast_S_S8x1 : S_.BroadcastsInDim S8x1 (![] : Fin 0 → Fin S8x1.rank)
  concatenates_S8x1_S8x8191_S8x8192_d1 : Shape.Concatenates [S8x1, S8x8191] S8x8192 1
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S_S8x8192x512 : S_.BroadcastsInDim S8x8192x512 (![] : Fin 0 → Fin S8x8192x512.rank)
  gather_S10240x128_S8x8192x1_S8x8192x128_2_0_n_n_0_2_1128_wf : GatherDims.WF S10240x128 S8x8192x1 S8x8192x128 [2] [0] [] [0] [] 2 ![1, 128]
  dot_S8x8192x128_S512x128_S8x8192x512_2_1_01_0_n_n_wf : DotDims.WF S8x8192x128 S512x128 S8x8192x512 [2] [1] [0, 1] [0] [] []

variable [Facts₀]

def gather_S10240x128_S8x8192x1_S8x8192x128_2_0_n_n_0_2_1128 : GatherDims S10240x128 S8x8192x1 S8x8192x128 where
  offsetDims := [2]
  collapsedSliceDims := [0]
  operandBatchingDims := []
  startIndicesBatchingDims := []
  startIndexMap := [0]
  indexVectorDim := 2
  sliceSizes := ![1, 128]
  wf := gather_S10240x128_S8x8192x1_S8x8192x128_2_0_n_n_0_2_1128_wf
def dot_S8x8192x128_S512x128_S8x8192x512_2_1_01_0_n_n : DotDims S8x8192x128 S512x128 S8x8192x512 where
  lhsContracting := [2]
  rhsContracting := [1]
  lhsNonContracting := [0, 1]
  rhsNonContracting := [0]
  lhsBatch := []
  rhsBatch := []
  wf := dot_S8x8192x128_S512x128_S8x8192x512_2_1_01_0_n_n_wf

class Facts : Prop extends Facts₀ where

variable [Facts]
-- ==== Proof.KernelFrame.lean ====
/- The frame run of the bigram-hash gather kernel's program: @main is seven stretches of host operations (the hash of
   the token ids into two index arrays, the table cast and folded by column blocks, the projection transposed, scaled
   and cast), ONE pallas_call over a grid of 64 points, and the reshape of its result. At each point the body loads
   two index blocks, the whole folded table and the whole projection, and stores the projected gather over the whole
   output block. Here: @main around the call, the arrays as the call finds them, each window's block at a point, what
   the body leaves in the output block, the body's triple, the proof data, the body obligation, the run, and the
   frame claim (the four argument arrays end as launched), all at any float instance. -/
import proofs.«405215_j39943195853444_3_alg».proof.Proof.Gen.Kernel.Launch
import proofs.«405215_j39943195853444_3_alg».proof.Proof.Gen.Kernel.Skeleton
import proofs.«405215_j39943195853444_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its one pallas_call -/

/-- The seven stretches of host operations before the pallas_call: the bigram hash of the token ids and its two
    remainders and floor division (the index arrays), the table cast and folded by column blocks, the projection
    transposed, scaled and cast. -/
abbrev preOps : List (List (HloOp τ sig (Elt F))) :=
  [hostOps0, hostOps0_1, hostOps0_2, hostOps0_3, hostOps0_4, hostOps0_5, hostOps0_6]

/-- Core `c`'s TensorCore buffers when the pallas_call is entered, as a valuation: the launch memory after the
    host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches, the pallas_call, then the reshape of its result: it reduces to the call continued
    by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-! ## The reshape after the pallas_call -/

/-- The one stretch after the call is the reshape alone. -/
theorem mem_tail {ops : List (HloOp τ sig (Elt F))} (h : ops ∈ ([hostOps1] : List (List (HloOp τ sig (Elt F))))) : ops = hostOps1 :=
  List.mem_singleton.mp h

/-- It touches unscoped TensorCore references only, and with nothing prefetched each of those is an array of the
    call or a buffer that bypasses it. -/
theorem tail_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  obtain rfl := mem_tail hops
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  obtain rfl := mem_tail hops
  exact (List.forall_iff_forall_mem.mp hostOps1_fresh) op hop
/-- It writes its own result only, which is none of the call's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := mem_tail hops
  obtain rfl := List.mem_singleton.mp hop
  fin_cases w <;> simp only [StableHlo.reshape_writes, Finset.mem_singleton] <;> exact StableHlo.devRef_ne_of_ne (by decide)

/-! ## The argument arrays: written by nothing -/

/-- No host operation before the pallas_call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the pallas_call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the pallas_call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the pallas_call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The body's accesses: each staging buffer whole -/

/-- The whole of an index block (1024 rows, one column). -/
abbrev rIdx : Rect S1024x1 := Rect.unit (s := S1024x1) ![0, 0] S1024x1.size inb_S1024x1_S1024x1_0_0
/-- The whole of the folded table (2560 rows of 512). -/
abbrev rTab : Rect S2560x512 := Rect.unit (s := S2560x512) ![0, 0] S2560x512.size inb_S2560x512_S2560x512_0_0
/-- The whole of the projection (128 rows of 512). -/
abbrev rProj : Rect S128x512 := Rect.unit (s := S128x512) ![0, 0] S128x512.size inb_S128x512_S128x512_0_0
/-- The whole of an output block (1024 rows of 512). -/
abbrev rOut : Rect S1024x512 := Rect.unit (s := S1024x512) ![0, 0] S1024x512.size inb_S1024x512_S1024x512_0_0

/-! ## What the body leaves in the output block -/

/-- The output block after the body, from the two index blocks, the folded table and the projection: its one
    store, of the projected gather, as the one piece of a canon. -/
def outBlock (hm hq : Vec F S1024x1 .i32) (E : Vec F S2560x512 .bf16) (P : Vec F S128x512 .bf16) : Vec F S1024x512 .f32 :=
  View.canon [⟨rOut, k0_pay1 (k0_pay2 (View.ld hm rIdx) (View.ld hq rIdx) (View.ld E rTab)) (View.ld P rProj)⟩]

/-- The zero offsets of a rank-2 rectangle, however spelt. -/
theorem off2_zero : (![0, 0] : Fin 2 → Nat) = fun _ => 0 := by
  funext a; fin_cases a <;> rfl

/-- A whole-buffer load reads the contents and the one covering store leaves its payload: the output block is
    the projected gather of the blocks themselves. -/
theorem outBlock_eq (hm hq : Vec F S1024x1 .i32) (E : Vec F S2560x512 .bf16) (P : Vec F S128x512 .bf16) :
    outBlock hm hq E P = k0_pay1 (k0_pay2 hm hq E) P := by
  unfold outBlock
  rw [View.canon_unit_zero off2_zero]
  simp only [View.ld_unit_zero (S := S1024x1) off2_zero, View.ld_unit_zero (S := S2560x512) off2_zero,
    View.ld_unit_zero (S := S128x512) off2_zero]

/-- The one store covers the output block. -/
theorem cover_out (p0 : Vec F S1024x512 .f32) (y : S1024x512.Idx) :
    ∃ pc ∈ ([⟨rOut, p0⟩] : List (View.Piece (Elt F) S1024x512 .f32)), y ∈ pc.1.set :=
  ⟨_, List.mem_singleton_self _, View.mem_set_unit_zero off2_zero inb_S1024x512_S1024x512_0_0 y⟩

/-! ## The body's triple -/

set_option maxHeartbeats 1000000 in
/-- The kernel body on whole staging memrefs — the two index blocks, the folded table and the projection at read
    contents, the output block at anything — runs to the continuation holding the four inputs as they were and the
    output at `outBlock` of them. -/
theorem sound_kernel (c : Dev nD) (E : Set ℕ) (i : grid0.Coords)
    (arg1 : Memref sig .tc .vmem S1024x1 .i32) (harg1 : arg1.IsWhole) (arg2 : Memref sig .tc .vmem S1024x1 .i32) (harg2 : arg2.IsWhole)
    (arg3 : Memref sig .tc .vmem S2560x512 .bf16) (harg3 : arg3.IsWhole) (arg4 : Memref sig .tc .vmem S128x512 .bf16) (harg4 : arg4.IsWhole)
    (arg5 : Memref sig .tc .vmem S1024x512 .f32) (harg5 : arg5.IsWhole)
    (x0 x1 : Vec F S1024x1 .i32) (x2 : Vec F S2560x512 .bf16) (x3 : Vec F S128x512 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc0__gather_proj_kernel i arg1 harg1 arg2 harg2 arg3 harg3 arg4 harg4 arg5 harg5) K := by
  simp only [cc0__gather_proj_kernel_eq_skeleton]; unfold cc0__gather_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap
  · iexact H4
  ipureintro
  exact View.read_writes_eq_canon _ _ _ (cover_out _)

/-! ## The windows' blocks -/

/-- Window `w`'s block at point `t`, read off its array as the pallas_call finds it (`V`): rows
    `1024 t … 1024 t + 1023` of an index array, the whole of the folded table or of the projection. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the one pipeline -/

/-- On core `c`: the arrays as the call finds them (`V`); after the body at point `t` each input's buffer at
    its block and the output's at `outBlock` of the four input blocks; the invariant the class's (the scoped rest
    and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

/-- The proof data's arrays are the entry contents (the definition projected). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

/-! ## What the body finds in each input window -/

/-- Window 0 (the first index block): its current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Window 1 (the second index block): its current staging buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Window 2 (the folded table): its current staging buffer holds its block at every point, though fetched at the first point only: unfetched, the block index has not moved. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Window 3 (the projection): its current staging buffer holds its block at every point, though fetched at the first point only: unfetched, the block index has not moved. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, the core's debt, the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the four inputs' memrefs hold their blocks, so the kernel's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and
    every final state has each array of the pipeline at what the library computes from the proof data and every other
    unscoped buffer as the reshape after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- info: 'Cert.Kernel.Fr.run_main' depends on axioms: [propext, Classical.choice, Quot.sound] -/
#guard_msgs in #print axioms run_main

/-- THE FRAME: the four argument arrays end as launched. None is an array of the pipeline and none is scoped, so the
    run's post reads each as the reshape after the call leaves it, which is as the call found it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Kernel.Fr

end
-- ==== Proof.KernelIdealFrame.lean ====
/- The frame run of the bigram-hash gather kernel's program: @main is seven stretches of host operations (the hash of
   the token ids into two index arrays, the table cast and folded by column blocks, the projection transposed, scaled
   and cast), ONE pallas_call over a grid of 64 points, and the reshape of its result. At each point the body loads
   two index blocks, the whole folded table and the whole projection, and stores the projected gather over the whole
   output block. Here: @main around the call, the arrays as the call finds them, each window's block at a point, what
   the body leaves in the output block, the body's triple, the proof data, the body obligation, the run, and the
   frame claim (the four argument arrays end as launched), all at any float instance. -/
import proofs.«405215_j39943195853444_3_alg».proof.Proof.Gen.KernelIdeal.Launch
import proofs.«405215_j39943195853444_3_alg».proof.Proof.Gen.KernelIdeal.Skeleton
import proofs.«405215_j39943195853444_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its one pallas_call -/

/-- The seven stretches of host operations before the pallas_call: the bigram hash of the token ids and its two
    remainders and floor division (the index arrays), the table cast and folded by column blocks, the projection
    transposed, scaled and cast. -/
abbrev preOps : List (List (HloOp τ sig (Elt F))) :=
  [hostOps0, hostOps0_1, hostOps0_2, hostOps0_3, hostOps0_4, hostOps0_5, hostOps0_6]

/-- Core `c`'s TensorCore buffers when the pallas_call is entered, as a valuation: the launch memory after the
    host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches, the pallas_call, then the reshape of its result: it reduces to the call continued
    by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-! ## The reshape after the pallas_call -/

/-- The one stretch after the call is the reshape alone. -/
theorem mem_tail {ops : List (HloOp τ sig (Elt F))} (h : ops ∈ ([hostOps1] : List (List (HloOp τ sig (Elt F))))) : ops = hostOps1 :=
  List.mem_singleton.mp h

/-- It touches unscoped TensorCore references only, and with nothing prefetched each of those is an array of the
    call or a buffer that bypasses it. -/
theorem tail_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  obtain rfl := mem_tail hops
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  obtain rfl := mem_tail hops
  exact (List.forall_iff_forall_mem.mp hostOps1_fresh) op hop
/-- It writes its own result only, which is none of the call's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := mem_tail hops
  obtain rfl := List.mem_singleton.mp hop
  fin_cases w <;> simp only [StableHlo.reshape_writes, Finset.mem_singleton] <;> exact StableHlo.devRef_ne_of_ne (by decide)

/-! ## The argument arrays: written by nothing -/

/-- No host operation before the pallas_call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the pallas_call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the pallas_call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the pallas_call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6,
      StableHlo.TRef.nullary, StableHlo.TRef.unary, StableHlo.TRef.binary, StableHlo.TRef.ternary,
      List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The body's accesses: each staging buffer whole -/

/-- The whole of an index block (1024 rows, one column). -/
abbrev rIdx : Rect S1024x1 := Rect.unit (s := S1024x1) ![0, 0] S1024x1.size inb_S1024x1_S1024x1_0_0
/-- The whole of the folded table (2560 rows of 512). -/
abbrev rTab : Rect S2560x512 := Rect.unit (s := S2560x512) ![0, 0] S2560x512.size inb_S2560x512_S2560x512_0_0
/-- The whole of the projection (128 rows of 512). -/
abbrev rProj : Rect S128x512 := Rect.unit (s := S128x512) ![0, 0] S128x512.size inb_S128x512_S128x512_0_0
/-- The whole of an output block (1024 rows of 512). -/
abbrev rOut : Rect S1024x512 := Rect.unit (s := S1024x512) ![0, 0] S1024x512.size inb_S1024x512_S1024x512_0_0

/-! ## What the body leaves in the output block -/

/-- The output block after the body, from the two index blocks, the folded table and the projection: its one
    store, of the projected gather, as the one piece of a canon. -/
def outBlock (hm hq : Vec F S1024x1 .i32) (E : Vec F S2560x512 .bf16) (P : Vec F S128x512 .bf16) : Vec F S1024x512 .f32 :=
  View.canon [⟨rOut, k0_pay1 (k0_pay2 (View.ld hm rIdx) (View.ld hq rIdx) (View.ld E rTab)) (View.ld P rProj)⟩]

/-- The zero offsets of a rank-2 rectangle, however spelt. -/
theorem off2_zero : (![0, 0] : Fin 2 → Nat) = fun _ => 0 := by
  funext a; fin_cases a <;> rfl

/-- A whole-buffer load reads the contents and the one covering store leaves its payload: the output block is
    the projected gather of the blocks themselves. -/
theorem outBlock_eq (hm hq : Vec F S1024x1 .i32) (E : Vec F S2560x512 .bf16) (P : Vec F S128x512 .bf16) :
    outBlock hm hq E P = k0_pay1 (k0_pay2 hm hq E) P := by
  unfold outBlock
  rw [View.canon_unit_zero off2_zero]
  simp only [View.ld_unit_zero (S := S1024x1) off2_zero, View.ld_unit_zero (S := S2560x512) off2_zero,
    View.ld_unit_zero (S := S128x512) off2_zero]

/-- The one store covers the output block. -/
theorem cover_out (p0 : Vec F S1024x512 .f32) (y : S1024x512.Idx) :
    ∃ pc ∈ ([⟨rOut, p0⟩] : List (View.Piece (Elt F) S1024x512 .f32)), y ∈ pc.1.set :=
  ⟨_, List.mem_singleton_self _, View.mem_set_unit_zero off2_zero inb_S1024x512_S1024x512_0_0 y⟩

/-! ## The body's triple -/

set_option maxHeartbeats 1000000 in
/-- The kernel body on whole staging memrefs — the two index blocks, the folded table and the projection at read
    contents, the output block at anything — runs to the continuation holding the four inputs as they were and the
    output at `outBlock` of them. -/
theorem sound_kernel (c : Dev nD) (E : Set ℕ) (i : grid0.Coords)
    (arg1 : Memref sig .tc .vmem S1024x1 .i32) (harg1 : arg1.IsWhole) (arg2 : Memref sig .tc .vmem S1024x1 .i32) (harg2 : arg2.IsWhole)
    (arg3 : Memref sig .tc .vmem S2560x512 .bf16) (harg3 : arg3.IsWhole) (arg4 : Memref sig .tc .vmem S128x512 .bf16) (harg4 : arg4.IsWhole)
    (arg5 : Memref sig .tc .vmem S1024x512 .f32) (harg5 : arg5.IsWhole)
    (x0 x1 : Vec F S1024x1 .i32) (x2 : Vec F S2560x512 .bf16) (x3 : Vec F S128x512 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc0__gather_proj_kernel i arg1 harg1 arg2 harg2 arg3 harg3 arg4 harg4 arg5 harg5) K := by
  simp only [cc0__gather_proj_kernel_eq_skeleton]; unfold cc0__gather_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap
  · iexact H4
  ipureintro
  exact View.read_writes_eq_canon _ _ _ (cover_out _)

/-! ## The windows' blocks -/

/-- Window `w`'s block at point `t`, read off its array as the pallas_call finds it (`V`): rows
    `1024 t … 1024 t + 1023` of an index array, the whole of the folded table or of the projection. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the one pipeline -/

/-- On core `c`: the arrays as the call finds them (`V`); after the body at point `t` each input's buffer at
    its block and the output's at `outBlock` of the four input blocks; the invariant the class's (the scoped rest
    and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

/-- The proof data's arrays are the entry contents (the definition projected). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

/-! ## What the body finds in each input window -/

/-- Window 0 (the first index block): its current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Window 1 (the second index block): its current staging buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Window 2 (the folded table): its current staging buffer holds its block at every point, though fetched at the first point only: unfetched, the block index has not moved. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Window 3 (the projection): its current staging buffer holds its block at every point, though fetched at the first point only: unfetched, the block index has not moved. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, the core's debt, the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the four inputs' memrefs hold their blocks, so the kernel's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and
    every final state has each array of the pipeline at what the library computes from the proof data and every other
    unscoped buffer as the reshape after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- THE FRAME: the four argument arrays end as launched. None is an array of the pipeline and none is scoped, so the
    run's post reads each as the reshape after the call leaves it, which is as the call found it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Fr

end
-- ==== Proof.Spec.lean ====
/-
  The mathematics both programs share, free of either program's text.

  A token array `tok : [8, 8192]` of 32-bit words is hashed position by position: column 0 of every row is the
  constant 10239, and column s ≥ 1 is `((36313 · tok[b, s]) xor (27191 · tok[b, s-1])) mod 10239`, the remainder taken
  with the sign of the divisor (jnp's `mod`: the truncated remainder, plus the divisor when the two signs differ and the
  remainder is not zero). Every hash is therefore a row number `0 ≤ h < 10240` of the embedding table.

  The result is `out[b, s, c] = (∑ p, embed[h[b, s], p] · proj[c, p]) · scale` (`G` below).

  This file only STATES the pure terms (the hash, the two index arrays the kernel derives from it, the table folded
  into four column groups, the scaled projection, the reference's whole term) and the function `G` they are both
  shown equal to; it proves nothing about them.
-/
import Idealize.ShloMosaic.PureOps
import Idealize.ShloMosaic.PureOps.Ideal
import Idealize.ShloMosaic.Lib.ValueIdx

noncomputable section

namespace BigramGather

open Idealize.ShloMosaic

/-! ## Shapes -/

abbrev T0 : Shape := ⟨0, ![]⟩
abbrev T8x8192 : Shape := ⟨2, ![8, 8192]⟩
abbrev T8x8191 : Shape := ⟨2, ![8, 8191]⟩
abbrev T8x1 : Shape := ⟨2, ![8, 1]⟩
abbrev T65536x1 : Shape := ⟨2, ![65536, 1]⟩
abbrev T10240x128 : Shape := ⟨2, ![10240, 128]⟩
abbrev T2560x128 : Shape := ⟨2, ![2560, 128]⟩
abbrev T2560x512 : Shape := ⟨2, ![2560, 512]⟩
abbrev T512x128 : Shape := ⟨2, ![512, 128]⟩
abbrev T128x512 : Shape := ⟨2, ![128, 512]⟩
abbrev T65536x512 : Shape := ⟨2, ![65536, 512]⟩
abbrev T8x8192x1 : Shape := ⟨3, ![8, 8192, 1]⟩
abbrev T8x8192x128 : Shape := ⟨3, ![8, 8192, 128]⟩
abbrev T8x8192x512 : Shape := ⟨3, ![8, 8192, 512]⟩

/-! ## The shape relations the operations ask for -/

theorem sl_tok_1 : T8x8192.Slices ![0, 1] T8x8191 := by decide
theorem sl_tok_0 : T8x8192.Slices ![0, 0] T8x8191 := by decide
theorem bc_8x8191 : T0.BroadcastsInDim T8x8191 (![] : Fin 0 → Fin T8x8191.rank) := by decide
theorem bc_8x1 : T0.BroadcastsInDim T8x1 (![] : Fin 0 → Fin T8x1.rank) := by decide
theorem bc_8x8192 : T0.BroadcastsInDim T8x8192 (![] : Fin 0 → Fin T8x8192.rank) := by decide
theorem bc_65536x1 : T0.BroadcastsInDim T65536x1 (![] : Fin 0 → Fin T65536x1.rank) := by decide
theorem bc_128x512 : T0.BroadcastsInDim T128x512 (![] : Fin 0 → Fin T128x512.rank) := by decide
theorem bc_8x8192x512 : T0.BroadcastsInDim T8x8192x512 (![] : Fin 0 → Fin T8x8192x512.rank) := by decide
theorem bc_idx : T8x8192.BroadcastsInDim T8x8192x1 (![0, 1] : Fin 2 → Fin T8x8192x1.rank) := by decide
theorem cat_hash : Shape.Concatenates [T8x1, T8x8191] T8x8192 1 := by decide
theorem cast_hash : T8x8192.ShapeCasts T65536x1 := by decide
theorem cast_out : T65536x512.ShapeCasts T8x8192x512 := by decide
theorem bf16_lt_f32 : FTy.bits .bf16 < FTy.bits .f32 := by decide
theorem sl_e_0 : T10240x128.Slices ![0, 0] T2560x128 := by decide
theorem sl_e_1 : T10240x128.Slices ![2560, 0] T2560x128 := by decide
theorem sl_e_2 : T10240x128.Slices ![5120, 0] T2560x128 := by decide
theorem sl_e_3 : T10240x128.Slices ![7680, 0] T2560x128 := by decide
theorem cat_e : Shape.Concatenates [T2560x128, T2560x128, T2560x128, T2560x128] T2560x512 1 := by decide
theorem tr_proj : T512x128.Transposes [1, 0] T128x512 := by decide
theorem gather_wf : GatherDims.WF T10240x128 T8x8192x1 T8x8192x128 [2] [0] [] [0] [] 2 ![1, 128] := by decide
theorem dot_wf : DotDims.WF T8x8192x128 T512x128 T8x8192x512 [2] [1] [0, 1] [0] [] [] := by decide

/-- The reference's row gather: one table row per index, 128 entries wide. -/
def gatherRows : GatherDims T10240x128 T8x8192x1 T8x8192x128 where
  offsetDims := [2]
  collapsedSliceDims := [0]
  operandBatchingDims := []
  startIndicesBatchingDims := []
  startIndexMap := [0]
  indexVectorDim := 2
  sliceSizes := ![1, 128]
  wf := gather_wf

/-- The reference's projection: the gathered rows against the projection matrix, contracted over the 128 features. -/
def dotProj : DotDims T8x8192x128 T512x128 T8x8192x512 where
  lhsContracting := [2]
  rhsContracting := [1]
  lhsNonContracting := [0, 1]
  rhsNonContracting := [0]
  lhsBatch := []
  rhsBatch := []
  wf := dot_wf

/-! ## jnp's integer remainder and floor division by a scalar, as lowered -/

/-- `jnp.remainder x d` on 32-bit words, `d` a scalar: the truncated remainder by `d` (by 1 when `d` is 0), plus `d` where
    the remainder is not zero and its sign differs from `d`'s. -/
def jrem (S : Shape) (hb : T0.BroadcastsInDim S (![] : Fin 0 → Fin S.rank)) (x : IVec S 32) (d : IVec T0 32) : IVec S 32 :=
  select
    (andi
      (cmpi .ne
        (cmpi .slt (Host.remsi x (broadcastInDim S ![] hb (select (cmpi .eq (id d) (constantI T0 32 0#32)) (constantI T0 32 1#32) (id d))))
          (broadcastInDim S ![] hb (constantI T0 32 0#32)))
        (broadcastInDim S ![] hb (cmpi .slt (select (cmpi .eq (id d) (constantI T0 32 0#32)) (constantI T0 32 1#32) (id d)) (constantI T0 32 0#32))))
      (cmpi .ne (Host.remsi x (broadcastInDim S ![] hb (select (cmpi .eq (id d) (constantI T0 32 0#32)) (constantI T0 32 1#32) (id d))))
        (broadcastInDim S ![] hb (constantI T0 32 0#32))))
    (addi (Host.remsi x (broadcastInDim S ![] hb (select (cmpi .eq (id d) (constantI T0 32 0#32)) (constantI T0 32 1#32) (id d))))
      (broadcastInDim S ![] hb (select (cmpi .eq (id d) (constantI T0 32 0#32)) (constantI T0 32 1#32) (id d))))
    (Host.remsi x (broadcastInDim S ![] hb (select (cmpi .eq (id d) (constantI T0 32 0#32)) (constantI T0 32 1#32) (id d))))

/-- `jnp.floor_divide x d` on 32-bit words, `d` a scalar: the truncated quotient, less one where the signs of `x` and `d`
    differ and the remainder is not zero. -/
def jfloordiv (S : Shape) (hb : T0.BroadcastsInDim S (![] : Fin 0 → Fin S.rank)) (x : IVec S 32) (d : IVec T0 32) : IVec S 32 :=
  select
    (andi
      (cmpi .ne (signi x) (broadcastInDim S ![] hb (signi (id d))))
      (cmpi .ne (Host.remsi x (broadcastInDim S ![] hb (id d))) (broadcastInDim S ![] hb (constantI T0 32 0#32))))
    (subi (Host.divsi x (broadcastInDim S ![] hb (id d))) (broadcastInDim S ![] hb (constantI T0 32 1#32)))
    (Host.divsi x (broadcastInDim S ![] hb (id d)))

/-! ## The hash -/

/-- The two multiplied neighbours, xor-ed: `36313 · tok[b, s+1] xor 27191 · tok[b, s]`, for `s < 8191`. -/
def mixed (tok : IVec T8x8192 32) : IVec T8x8191 32 :=
  xori
    (muli (broadcastInDim T8x8191 ![] bc_8x8191 (constantI T0 32 36313#32)) (extractStridedSlice T8x8191 ![0, 1] tok sl_tok_1))
    (muli (broadcastInDim T8x8191 ![] bc_8x8191 (constantI T0 32 27191#32)) (extractStridedSlice T8x8191 ![0, 0] tok sl_tok_0))

/-- The bigram hash of every position: column 0 is 10239, column `s ≥ 1` is `mixed` at `s - 1` reduced mod 10239. -/
def hashOf (tok : IVec T8x8192 32) : IVec T8x8192 32 :=
  concatenate T8x8192 1
    [⟨T8x1, broadcastInDim T8x1 ![] bc_8x1 (constantI T0 32 10239#32)⟩,
     ⟨T8x8191, jrem T8x8191 bc_8x8191 (mixed tok) (constantI T0 32 10239#32)⟩] cat_hash

/-- The hashes as one column of 65536 rows (row `8192 · b + s`). -/
def hashCol (tok : IVec T8x8192 32) : IVec T65536x1 32 := shapeCast T65536x1 (hashOf tok) cast_hash

/-- The kernel's row-within-group index: the hash mod 2560. -/
def hmodOf (tok : IVec T8x8192 32) : IVec T65536x1 32 := jrem T65536x1 bc_65536x1 (hashCol tok) (constantI T0 32 2560#32)

/-- The kernel's group index: the hash floor-divided by 2560. -/
def hqOf (tok : IVec T8x8192 32) : IVec T65536x1 32 := jfloordiv T65536x1 bc_65536x1 (hashCol tok) (constantI T0 32 2560#32)

/-! ## The kernel's two resident operands -/

variable {F : FTy → Type} [FloatOps F]

/-- The embedding table folded into four column groups: `E4[k, 128 g + p] = embed[2560 g + k, p]` (rounded to bf16, which
    at the ideal instance changes nothing). -/
def e4Of (embed : FVec F T10240x128 .f32) : FVec F T2560x512 .bf16 :=
  concatenate T2560x512 1
    [⟨T2560x128, extractStridedSlice T2560x128 ![0, 0] (truncf .bf16 embed bf16_lt_f32) sl_e_0⟩,
     ⟨T2560x128, extractStridedSlice T2560x128 ![2560, 0] (truncf .bf16 embed bf16_lt_f32) sl_e_1⟩,
     ⟨T2560x128, extractStridedSlice T2560x128 ![5120, 0] (truncf .bf16 embed bf16_lt_f32) sl_e_2⟩,
     ⟨T2560x128, extractStridedSlice T2560x128 ![7680, 0] (truncf .bf16 embed bf16_lt_f32) sl_e_3⟩] cat_e

/-- The projection transposed and scaled: `P[p, c] = proj[c, p] · scale`. -/
def projtOf (proj : FVec F T512x128 .f32) (scale : FVec F T0 .f32) : FVec F T128x512 .bf16 :=
  truncf .bf16 (mulf (transpose T128x512 [1, 0] proj tr_proj) (broadcastInDim T128x512 ![] bc_128x512 scale)) bf16_lt_f32

/-! ## The reference's term -/

/-- jnp's index normalisation before a gather: a negative index counts from the end of the 10240 rows. -/
def normIdx (h : IVec T8x8192 32) : IVec T8x8192x1 32 :=
  broadcastInDim T8x8192x1 ![0, 1] bc_idx
    (select (cmpi .slt h (broadcastInDim T8x8192 ![] bc_8x8192 (constantI T0 32 0#32)))
      (addi h (broadcastInDim T8x8192 ![] bc_8x8192 (constantI T0 32 10240#32))) h)

/-- The reference's result as one term of the argument arrays: gather the hashed rows, project, scale. -/
def refOut (tok : IVec T8x8192 32) (embed : FVec F T10240x128 .f32) (proj : FVec F T512x128 .f32) (scale : FVec F T0 .f32) :
    FVec F T8x8192x512 .f32 :=
  mulf (Host.dotGeneral dotProj none (Host.gather gatherRows embed (normIdx (hashOf tok))) proj)
    (broadcastInDim T8x8192x512 ![] bc_8x8192x512 scale)

/-! ## The function both sides compute, at the ideal instance -/

open ValueIdx in
/-- `G tok embed proj scale [b, s, c] = (∑ p, embed[h[b, s], p] · proj[c, p]) · scale`, `h` the hash read as a row number
    (a hash is below 10240: the row number is taken mod 10240 only to have a type). -/
def G (tok : IVec T8x8192 32) (embed : T10240x128.Idx → EReal) (proj : T512x128.Idx → EReal) (scale : T0.Idx → EReal) :
    T8x8192x512.Idx → EReal := fun i =>
  (∑ p : Fin 128, embed (ix2 (⟨(hashOf tok (ix2 (i 0) (i 1))).toNat % 10240, Nat.mod_lt _ (by decide)⟩ : Fin 10240) p)
      * proj (ix2 (i 2) p)) * scale ix0

end BigramGather

end
-- ==== Proof.KernelHostA.lean ====
/-
  What the first four stretches of the kernel's host program compute, each run from ANY buffer contents `W`: its result
  buffer holds the shared pure term (Spec.lean) of what `W` held in its operand buffers, and the buffers it does not
  write keep what they held. The stretches: the two multiplied, xor-ed shifts of the tokens; the remainder by 10239;
  the constant column put in front and the 8 x 8192 hashes laid out as one column; the remainder by 2560.
-/
import proofs.«405215_j39943195853444_3_alg».proof.Proof.Gen.KernelIdeal.Launch
import proofs.«405215_j39943195853444_3_alg».proof.Proof.Spec
import Idealize.ShloMosaic.Lib.StableHlo.Run

set_option maxRecDepth 16384

noncomputable section

namespace Cert.KernelIdeal.HostValA

open Idealize.ShloMosaic Idealize.ShloMosaic.TcCoe
open Idealize.SL Idealize.SL.Sem Idealize.ShloMosaic.StableHlo
open Cert.KernelIdeal Cert.KernelIdeal.Gen

variable {F : FTy → Type} [FloatOps F]

set_option maxHeartbeats 2000000

/-- The first stretch multiplies and xors the two shifted copies of the tokens, -/
theorem s0_mixed (W : Valuation τ sig (Elt F)) :
    after (hostOps0 (F := F)) W (Proc.devRef .tc main_v6) = BigramGather.mixed (W (Proc.devRef .tc main_arg0)) := by
  simp only [hostOps0]; after_results_simp; rfl

/-- and leaves the modulus 10239 in its constant buffer. -/
theorem s0_c1 (W : Valuation τ sig (Elt F)) :
    after (hostOps0 (F := F)) W (Proc.devRef .tc main_c_1) = constantI BigramGather.T0 32 10239#32 := by
  simp only [hostOps0]; after_results_simp

/-- The stretch writes none of the four argument arrays. -/
theorem keep0_args (W : Valuation τ sig (Elt F)) :
    after (hostOps0 (F := F)) W (Proc.devRef .tc main_arg0) = W (Proc.devRef .tc main_arg0)
    ∧ after (hostOps0 (F := F)) W (Proc.devRef .tc main_arg1) = W (Proc.devRef .tc main_arg1)
    ∧ after (hostOps0 (F := F)) W (Proc.devRef .tc main_arg2) = W (Proc.devRef .tc main_arg2)
    ∧ after (hostOps0 (F := F)) W (Proc.devRef .tc main_arg3) = W (Proc.devRef .tc main_arg3) := by
  refine ⟨?_, ?_, ?_, ?_⟩ <;> (simp only [hostOps0]; after_results_simp)

/-- The remainder call reduces its operand by the scalar it is handed. -/
theorem s1_rem (W : Valuation τ sig (Elt F)) :
    after (hostOps0_1 (F := F)) W (Proc.devRef .tc main_v7)
      = BigramGather.jrem BigramGather.T8x8191 BigramGather.bc_8x8191 (W (Proc.devRef .tc main_v6)) (W (Proc.devRef .tc main_c_1)) := by
  simp only [hostOps0_1]; after_results_simp; rfl

/-- The stretch writes none of the four argument arrays. -/
theorem keep1_args (W : Valuation τ sig (Elt F)) :
    after (hostOps0_1 (F := F)) W (Proc.devRef .tc main_arg0) = W (Proc.devRef .tc main_arg0)
    ∧ after (hostOps0_1 (F := F)) W (Proc.devRef .tc main_arg1) = W (Proc.devRef .tc main_arg1)
    ∧ after (hostOps0_1 (F := F)) W (Proc.devRef .tc main_arg2) = W (Proc.devRef .tc main_arg2)
    ∧ after (hostOps0_1 (F := F)) W (Proc.devRef .tc main_arg3) = W (Proc.devRef .tc main_arg3) := by
  refine ⟨?_, ?_, ?_, ?_⟩ <;> (simp only [hostOps0_1]; after_results_simp)

/-- The third stretch puts the constant column 10239 in front of the remainders and lays the 8 x 8192 hashes out as one
    column of 65536, -/
theorem s2_col (W : Valuation τ sig (Elt F)) :
    after (hostOps0_2 (F := F)) W (Proc.devRef .tc main_v10)
      = shapeCast BigramGather.T65536x1
          (concatenate BigramGather.T8x8192 1
            [⟨BigramGather.T8x1, broadcastInDim BigramGather.T8x1 ![] BigramGather.bc_8x1 (constantI BigramGather.T0 32 10239#32)⟩,
             ⟨BigramGather.T8x8191, (W (Proc.devRef .tc main_v7) : IVec BigramGather.T8x8191 32)⟩] BigramGather.cat_hash)
          BigramGather.cast_hash := by
  simp only [hostOps0_2]; after_results_simp; rfl

/-- and leaves the group size 2560 in its constant buffer. -/
theorem s2_c3 (W : Valuation τ sig (Elt F)) :
    after (hostOps0_2 (F := F)) W (Proc.devRef .tc main_c_3) = constantI BigramGather.T0 32 2560#32 := by
  simp only [hostOps0_2]; after_results_simp

/-- The stretch writes none of the four argument arrays. -/
theorem keep2_args (W : Valuation τ sig (Elt F)) :
    after (hostOps0_2 (F := F)) W (Proc.devRef .tc main_arg0) = W (Proc.devRef .tc main_arg0)
    ∧ after (hostOps0_2 (F := F)) W (Proc.devRef .tc main_arg1) = W (Proc.devRef .tc main_arg1)
    ∧ after (hostOps0_2 (F := F)) W (Proc.devRef .tc main_arg2) = W (Proc.devRef .tc main_arg2)
    ∧ after (hostOps0_2 (F := F)) W (Proc.devRef .tc main_arg3) = W (Proc.devRef .tc main_arg3) := by
  refine ⟨?_, ?_, ?_, ?_⟩ <;> (simp only [hostOps0_2]; after_results_simp)

/-- The second remainder call: the column of hashes reduced by the group size. -/
theorem s3_rem (W : Valuation τ sig (Elt F)) :
    after (hostOps0_3 (F := F)) W (Proc.devRef .tc main_v11)
      = BigramGather.jrem BigramGather.T65536x1 BigramGather.bc_65536x1 (W (Proc.devRef .tc main_v10)) (W (Proc.devRef .tc main_c_3)) := by
  simp only [hostOps0_3]; after_results_simp; rfl

/-- The stretch writes none of the four argument arrays. -/
theorem keep3_args (W : Valuation τ sig (Elt F)) :
    after (hostOps0_3 (F := F)) W (Proc.devRef .tc main_arg0) = W (Proc.devRef .tc main_arg0)
    ∧ after (hostOps0_3 (F := F)) W (Proc.devRef .tc main_arg1) = W (Proc.devRef .tc main_arg1)
    ∧ after (hostOps0_3 (F := F)) W (Proc.devRef .tc main_arg2) = W (Proc.devRef .tc main_arg2)
    ∧ after (hostOps0_3 (F := F)) W (Proc.devRef .tc main_arg3) = W (Proc.devRef .tc main_arg3) := by
  refine ⟨?_, ?_, ?_, ?_⟩ <;> (simp only [hostOps0_3]; after_results_simp)

/-- The remainder call leaves the column of hashes in place. -/
theorem keep3_main_v10 (W : Valuation τ sig (Elt F)) :
    after (hostOps0_3 (F := F)) W (Proc.devRef .tc main_v10) = W (Proc.devRef .tc main_v10) := by
  simp only [hostOps0_3]; after_results_simp

end Cert.KernelIdeal.HostValA

end
-- ==== Proof.KernelHostB.lean ====
/-
  What the last three stretches of the kernel's host program compute, each run from ANY buffer contents `W`: the group
  size again; the floor division of the column of hashes by it; the embedding table folded into four column groups and
  the projection transposed and scaled. Each result buffer holds the shared pure term (Spec.lean) of its operand
  buffers' contents, and the buffers a stretch does not write keep what they held.
-/
import proofs.«405215_j39943195853444_3_alg».proof.Proof.Gen.KernelIdeal.Launch
import proofs.«405215_j39943195853444_3_alg».proof.Proof.Spec
import Idealize.ShloMosaic.Lib.StableHlo.Run

set_option maxRecDepth 16384

noncomputable section

namespace Cert.KernelIdeal.HostValB

open Idealize.ShloMosaic Idealize.ShloMosaic.TcCoe
open Idealize.SL Idealize.SL.Sem Idealize.ShloMosaic.StableHlo
open Cert.KernelIdeal Cert.KernelIdeal.Gen

variable {F : FTy → Type} [FloatOps F]

set_option maxHeartbeats 2000000

/-- The fifth stretch leaves the group size 2560 in its constant buffer. -/
theorem s4_c4 (W : Valuation τ sig (Elt F)) :
    after (hostOps0_4 (F := F)) W (Proc.devRef .tc main_c_4) = constantI BigramGather.T0 32 2560#32 := by
  simp only [hostOps0_4]; after_results_simp

/-- The stretch writes none of the four argument arrays. -/
theorem keep4_args (W : Valuation τ sig (Elt F)) :
    after (hostOps0_4 (F := F)) W (Proc.devRef .tc main_arg0) = W (Proc.devRef .tc main_arg0)
    ∧ after (hostOps0_4 (F := F)) W (Proc.devRef .tc main_arg1) = W (Proc.devRef .tc main_arg1)
    ∧ after (hostOps0_4 (F := F)) W (Proc.devRef .tc main_arg2) = W (Proc.devRef .tc main_arg2)
    ∧ after (hostOps0_4 (F := F)) W (Proc.devRef .tc main_arg3) = W (Proc.devRef .tc main_arg3) := by
  refine ⟨?_, ?_, ?_, ?_⟩ <;> (simp only [hostOps0_4]; after_results_simp)

/-- It leaves the column of hashes in place, -/
theorem keep4_main_v10 (W : Valuation τ sig (Elt F)) :
    after (hostOps0_4 (F := F)) W (Proc.devRef .tc main_v10) = W (Proc.devRef .tc main_v10) := by
  simp only [hostOps0_4]; after_results_simp

/-- and the rows-within-group. -/
theorem keep4_main_v11 (W : Valuation τ sig (Elt F)) :
    after (hostOps0_4 (F := F)) W (Proc.devRef .tc main_v11) = W (Proc.devRef .tc main_v11) := by
  simp only [hostOps0_4]; after_results_simp

/-- The floor-division call: the column of hashes divided by the group size. -/
theorem s5_div (W : Valuation τ sig (Elt F)) :
    after (hostOps0_5 (F := F)) W (Proc.devRef .tc main_v12)
      = BigramGather.jfloordiv BigramGather.T65536x1 BigramGather.bc_65536x1 (W (Proc.devRef .tc main_v10)) (W (Proc.devRef .tc main_c_4)) := by
  simp only [hostOps0_5]; after_results_simp; rfl

/-- The stretch writes none of the four argument arrays. -/
theorem keep5_args (W : Valuation τ sig (Elt F)) :
    after (hostOps0_5 (F := F)) W (Proc.devRef .tc main_arg0) = W (Proc.devRef .tc main_arg0)
    ∧ after (hostOps0_5 (F := F)) W (Proc.devRef .tc main_arg1) = W (Proc.devRef .tc main_arg1)
    ∧ after (hostOps0_5 (F := F)) W (Proc.devRef .tc main_arg2) = W (Proc.devRef .tc main_arg2)
    ∧ after (hostOps0_5 (F := F)) W (Proc.devRef .tc main_arg3) = W (Proc.devRef .tc main_arg3) := by
  refine ⟨?_, ?_, ?_, ?_⟩ <;> (simp only [hostOps0_5]; after_results_simp)

/-- It leaves the rows-within-group in place. -/
theorem keep5_main_v11 (W : Valuation τ sig (Elt F)) :
    after (hostOps0_5 (F := F)) W (Proc.devRef .tc main_v11) = W (Proc.devRef .tc main_v11) := by
  simp only [hostOps0_5]; after_results_simp

/-- The last stretch folds the table into its four column groups, -/
theorem s6_e4 (W : Valuation τ sig (Elt F)) :
    after (hostOps0_6 (F := F)) W (Proc.devRef .tc main_v18) = BigramGather.e4Of (F := F) (W (Proc.devRef .tc main_arg1)) := by
  simp only [hostOps0_6]; after_results; rfl

/-- and transposes and scales the projection. -/
theorem s6_projt (W : Valuation τ sig (Elt F)) :
    after (hostOps0_6 (F := F)) W (Proc.devRef .tc main_v22)
      = BigramGather.projtOf (F := F) (W (Proc.devRef .tc main_arg2)) (W (Proc.devRef .tc main_arg3)) := by
  simp only [hostOps0_6]; after_results_simp; rfl

/-- The stretch writes none of the four argument arrays. -/
theorem keep6_args (W : Valuation τ sig (Elt F)) :
    after (hostOps0_6 (F := F)) W (Proc.devRef .tc main_arg0) = W (Proc.devRef .tc main_arg0)
    ∧ after (hostOps0_6 (F := F)) W (Proc.devRef .tc main_arg1) = W (Proc.devRef .tc main_arg1)
    ∧ after (hostOps0_6 (F := F)) W (Proc.devRef .tc main_arg2) = W (Proc.devRef .tc main_arg2)
    ∧ after (hostOps0_6 (F := F)) W (Proc.devRef .tc main_arg3) = W (Proc.devRef .tc main_arg3) := by
  refine ⟨?_, ?_, ?_, ?_⟩ <;> (simp only [hostOps0_6]; after_results_simp)

/-- It leaves the rows-within-group in place, -/
theorem keep6_main_v11 (W : Valuation τ sig (Elt F)) :
    after (hostOps0_6 (F := F)) W (Proc.devRef .tc main_v11) = W (Proc.devRef .tc main_v11) := by
  simp only [hostOps0_6]; after_results_simp

/-- and the group indices. -/
theorem keep6_main_v12 (W : Valuation τ sig (Elt F)) :
    after (hostOps0_6 (F := F)) W (Proc.devRef .tc main_v12) = W (Proc.devRef .tc main_v12) := by
  simp only [hostOps0_6]; after_results_simp

end Cert.KernelIdeal.HostValB

end
-- ==== Proof.KernelHost.lean ====
/-
  What the region finds in its four operand arrays: the seven stretches of host operations, run in order from the launch
  contents `W`, leave the row-within-group indices `hash mod 2560`, the group indices `hash div 2560`, the table folded into
  its four column groups and the scaled transposed projection — each the shared pure term (Spec.lean) of the ARGUMENT
  arrays' launch contents. The fold over the whole prefix is the stretches' folds composed; each operand is then read
  back through the stretches that do not write it to the one that does.
-/
import proofs.«405215_j39943195853444_3_alg».proof.Proof.KernelHostA
import proofs.«405215_j39943195853444_3_alg».proof.Proof.KernelHostB
import Idealize.ShloMosaic.Lib.Pipeline.Frame

set_option maxRecDepth 16384

noncomputable section

namespace Cert.KernelIdeal.HostVal

open Idealize.ShloMosaic Idealize.ShloMosaic.TcCoe
open Idealize.SL Idealize.SL.Sem Idealize.ShloMosaic.StableHlo
open Cert.KernelIdeal Cert.KernelIdeal.Gen Cert.KernelIdeal.HostValA Cert.KernelIdeal.HostValB

variable {F : FTy → Type} [FloatOps F]

/-- The seven stretches run as one line are the seven run one after the other. -/
theorem prefix_split (W : Valuation τ sig (Elt F)) :
    after (List.flatten [hostOps0 (F := F), hostOps0_1, hostOps0_2, hostOps0_3, hostOps0_4, hostOps0_5, hostOps0_6]) W
      = after hostOps0_6 (after hostOps0_5 (after hostOps0_4 (after hostOps0_3 (after hostOps0_2 (after hostOps0_1 (after hostOps0 W)))))) := by
  simp only [List.flatten_cons, List.flatten_nil, List.append_nil, StableHlo.after_append]

/-- At the region's entry the first index operand holds every position's hash mod 2560. -/
theorem entry_hmod (W : Valuation τ sig (Elt F)) :
    after (List.flatten [hostOps0 (F := F), hostOps0_1, hostOps0_2, hostOps0_3, hostOps0_4, hostOps0_5, hostOps0_6]) W (Proc.devRef .tc main_v11)
      = BigramGather.hmodOf (W (Proc.devRef .tc main_arg0)) := by
  rw [prefix_split, keep6_main_v11, keep5_main_v11, keep4_main_v11, s3_rem, s2_col, s2_c3, s1_rem, s0_mixed, s0_c1]
  rfl

/-- The second index operand holds every position's hash divided by 2560. -/
theorem entry_hq (W : Valuation τ sig (Elt F)) :
    after (List.flatten [hostOps0 (F := F), hostOps0_1, hostOps0_2, hostOps0_3, hostOps0_4, hostOps0_5, hostOps0_6]) W (Proc.devRef .tc main_v12)
      = BigramGather.hqOf (W (Proc.devRef .tc main_arg0)) := by
  rw [prefix_split, keep6_main_v12, s5_div, s4_c4, keep4_main_v10, keep3_main_v10, s2_col, s1_rem, s0_mixed, s0_c1]
  rfl

/-- The table operand holds the embedding table folded into its four column groups. -/
theorem entry_e4 (W : Valuation τ sig (Elt F)) :
    after (List.flatten [hostOps0 (F := F), hostOps0_1, hostOps0_2, hostOps0_3, hostOps0_4, hostOps0_5, hostOps0_6]) W (Proc.devRef .tc main_v18)
      = BigramGather.e4Of (F := F) (W (Proc.devRef .tc main_arg1)) := by
  rw [prefix_split, s6_e4, (keep5_args _).2.1, (keep4_args _).2.1, (keep3_args _).2.1, (keep2_args _).2.1, (keep1_args _).2.1, (keep0_args _).2.1]

/-- The projection operand holds the projection transposed and scaled. -/
theorem entry_projt (W : Valuation τ sig (Elt F)) :
    after (List.flatten [hostOps0 (F := F), hostOps0_1, hostOps0_2, hostOps0_3, hostOps0_4, hostOps0_5, hostOps0_6]) W (Proc.devRef .tc main_v22)
      = BigramGather.projtOf (F := F) (W (Proc.devRef .tc main_arg2)) (W (Proc.devRef .tc main_arg3)) := by
  rw [prefix_split, s6_projt, (keep5_args _).2.2.1, (keep4_args _).2.2.1, (keep3_args _).2.2.1, (keep2_args _).2.2.1, (keep1_args _).2.2.1, (keep0_args _).2.2.1,
    (keep5_args _).2.2.2, (keep4_args _).2.2.2, (keep3_args _).2.2.2, (keep2_args _).2.2.2, (keep1_args _).2.2.2, (keep0_args _).2.2.2]

/-- No stretch writes an argument array: the region finds each as launched. -/
theorem entry_args (W : Valuation τ sig (Elt F)) :
    after (List.flatten [hostOps0 (F := F), hostOps0_1, hostOps0_2, hostOps0_3, hostOps0_4, hostOps0_5, hostOps0_6]) W (Proc.devRef .tc main_arg0) = W (Proc.devRef .tc main_arg0)
    ∧ after (List.flatten [hostOps0 (F := F), hostOps0_1, hostOps0_2, hostOps0_3, hostOps0_4, hostOps0_5, hostOps0_6]) W (Proc.devRef .tc main_arg1) = W (Proc.devRef .tc main_arg1)
    ∧ after (List.flatten [hostOps0 (F := F), hostOps0_1, hostOps0_2, hostOps0_3, hostOps0_4, hostOps0_5, hostOps0_6]) W (Proc.devRef .tc main_arg2) = W (Proc.devRef .tc main_arg2)
    ∧ after (List.flatten [hostOps0 (F := F), hostOps0_1, hostOps0_2, hostOps0_3, hostOps0_4, hostOps0_5, hostOps0_6]) W (Proc.devRef .tc main_arg3) = W (Proc.devRef .tc main_arg3) := by
  refine ⟨?_, ?_, ?_, ?_⟩
  · rw [prefix_split, (keep6_args _).1, (keep5_args _).1, (keep4_args _).1, (keep3_args _).1, (keep2_args _).1, (keep1_args _).1, (keep0_args _).1]
  · rw [prefix_split, (keep6_args _).2.1, (keep5_args _).2.1, (keep4_args _).2.1, (keep3_args _).2.1, (keep2_args _).2.1, (keep1_args _).2.1, (keep0_args _).2.1]
  · rw [prefix_split, (keep6_args _).2.2.1, (keep5_args _).2.2.1, (keep4_args _).2.2.1, (keep3_args _).2.2.1, (keep2_args _).2.2.1, (keep1_args _).2.2.1, (keep0_args _).2.2.1]
  · rw [prefix_split, (keep6_args _).2.2.2, (keep5_args _).2.2.2, (keep4_args _).2.2.2, (keep3_args _).2.2.2, (keep2_args _).2.2.2, (keep1_args _).2.2.2, (keep0_args _).2.2.2]

end Cert.KernelIdeal.HostVal

end
-- ==== Proof.KernelBlocks.lean ====
/-
  The windows of the one pallas_call, read: at grid point `t` the two index windows and the output window hold rows
  `1024 t … 1024 t + 1023` of their arrays (block row `r` is array row `1024 t + r`), and the two resident operands hold
  their whole arrays; the 64 output blocks tile the 65536 rows. The printed index maps are decided once over the grid.
-/
import proofs.«405215_j39943195853444_3_alg».proof.Proof.Gen.KernelIdeal.Launch
import proofs.«405215_j39943195853444_3_alg».proof.Proof.Gen.KernelIdeal.Points
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]

/-- The printed index maps over the 64 grid points: the index windows and the output move one block of 1024 rows per
    point; the resident operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `1024 t + r` is a row of the 65536. -/
theorem row_lt (t : Fin cfg0.N) (r : Fin 1024) : 1024 * t.val + r.val < 65536 := by
  have ht : t.val < 64 := t.isLt
  have hr : r.val < 1024 := r.isLt
  omega

/-- Block row `r` of the first index window at point `t` is row `1024 t + r` of its array. -/
theorem read_hmod (c : Dev nD) (A : Buf (Elt F) ((c : Thread nD τ).loc main_v11)) (t : Fin cfg0.N) (r : Fin 1024) :
    ((cfg0.win 0).blk t).view.read (Elt F) A (ix2 r (0 : Fin 1)) = A (ix2 (⟨1024 * t.val + r.val, row_lt t r⟩ : Fin 65536) (0 : Fin 1)) := by
  obtain ⟨e0, e1, -⟩ := idx_facts t
  show A (((cfg0.win 0).blk t).view.emb (ix2 r (0 : Fin 1))) = A _
  congr 1
  funext a; apply Fin.ext
  match a with
  | ⟨0, _⟩ => show win0_0.index t (0 : Fin 2) * 1024 + 1 * r.val = 1024 * t.val + r.val; omega
  | ⟨1, _⟩ => show win0_0.index t (1 : Fin 2) * 1 + 1 * 0 = 0; omega

/-- The same for the second index window. -/
theorem read_hq (c : Dev nD) (A : Buf (Elt F) ((c : Thread nD τ).loc main_v12)) (t : Fin cfg0.N) (r : Fin 1024) :
    ((cfg0.win 1).blk t).view.read (Elt F) A (ix2 r (0 : Fin 1)) = A (ix2 (⟨1024 * t.val + r.val, row_lt t r⟩ : Fin 65536) (0 : Fin 1)) := by
  obtain ⟨-, -, e0, e1, -⟩ := idx_facts t
  show A (((cfg0.win 1).blk t).view.emb (ix2 r (0 : Fin 1))) = A _
  congr 1
  funext a; apply Fin.ext
  match a with
  | ⟨0, _⟩ => show win0_1.index t (0 : Fin 2) * 1024 + 1 * r.val = 1024 * t.val + r.val; omega
  | ⟨1, _⟩ => show win0_1.index t (1 : Fin 2) * 1 + 1 * 0 = 0; omega

/-- The table window holds its whole array at every point. -/
theorem read_e4 (c : Dev nD) (A : Buf (Elt F) ((c : Thread nD τ).loc main_v18)) (t : Fin cfg0.N) (k : Fin 2560) (q : Fin 512) :
    ((cfg0.win 2).blk t).view.read (Elt F) A (ix2 k q) = A (ix2 k q) := by
  obtain ⟨-, -, -, -, e0, e1, -⟩ := idx_facts t
  show A (((cfg0.win 2).blk t).view.emb (ix2 k q)) = A _
  congr 1
  funext a; apply Fin.ext
  match a with
  | ⟨0, _⟩ => show win0_2.index t (0 : Fin 2) * 2560 + 1 * k.val = k.val; omega
  | ⟨1, _⟩ => show win0_2.index t (1 : Fin 2) * 512 + 1 * q.val = q.val; omega

/-- The projection window holds its whole array at every point. -/
theorem read_projt (c : Dev nD) (A : Buf (Elt F) ((c : Thread nD τ).loc main_v22)) (t : Fin cfg0.N) (p : Fin 128) (q : Fin 512) :
    ((cfg0.win 3).blk t).view.read (Elt F) A (ix2 p q) = A (ix2 p q) := by
  obtain ⟨-, -, -, -, -, -, e0, e1, -⟩ := idx_facts t
  show A (((cfg0.win 3).blk t).view.emb (ix2 p q)) = A _
  congr 1
  funext a; apply Fin.ext
  match a with
  | ⟨0, _⟩ => show win0_3.index t (0 : Fin 2) * 128 + 1 * p.val = p.val; omega
  | ⟨1, _⟩ => show win0_3.index t (1 : Fin 2) * 512 + 1 * q.val = q.val; omega

/-- Block row `r`, column `q` of the output window at point `t` is row `1024 t + r`, column `q` of the output array. -/
theorem read_out (c : Dev nD) (A : Buf (Elt F) ((c : Thread nD τ).loc main_v23)) (t : Fin cfg0.N) (r : Fin 1024) (q : Fin 512) :
    ((cfg0.win 4).blk t).view.read (Elt F) A (ix2 r q) = A (ix2 (⟨1024 * t.val + r.val, row_lt t r⟩ : Fin 65536) q) := by
  obtain ⟨-, -, -, -, -, -, -, -, e0, e1⟩ := idx_facts t
  show A (((cfg0.win 4).blk t).view.emb (ix2 r q)) = A _
  congr 1
  funext a; apply Fin.ext
  match a with
  | ⟨0, _⟩ => show win0_4.index t (0 : Fin 2) * 1024 + 1 * r.val = 1024 * t.val + r.val; omega
  | ⟨1, _⟩ => show win0_4.index t (1 : Fin 2) * 512 + 1 * q.val = q.val; omega

/-- An index of the output array is in point `t`'s block iff each coordinate is in the block's range on its axis. -/
theorem mem_out_blk (t : Fin cfg0.N) (i : S65536x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v23).slice (win0_4.rect t)).set ↔ _
  rw [View.set_slice_whole, Rect.mem_set_unit]
  exact Iff.rfl

/-- Every index of the output array is in the block of the point that owns its row: point `row / 1024`. -/
theorem out_cover (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  refine ⟨⟨(i 0).val / 1024, by show _ < 64; omega⟩, flush0_4 _, ?_⟩
  rw [mem_out_blk]
  obtain ⟨-, -, -, -, -, -, -, -, e0, e1⟩ := idx_facts ⟨(i 0).val / 1024, by show _ < 64; omega⟩
  intro a
  match a with
  | ⟨0, _⟩ => show win0_4.index _ (0 : Fin 2) * 1024 ≤ (i 0).val ∧ (i 0).val < win0_4.index _ (0 : Fin 2) * 1024 + 1024; rw [e0]; show (i 0).val / 1024 * 1024 ≤ _ ∧ _ < (i 0).val / 1024 * 1024 + 1024; omega
  | ⟨1, _⟩ => show win0_4.index _ (1 : Fin 2) * 512 ≤ (i 1).val ∧ (i 1).val < win0_4.index _ (1 : Fin 2) * 512 + 512; rw [e1]; omega

end Cert.KernelIdeal.Blocks

end
-- ==== Proof.BlockValue.lean ====
import proofs.«405215_j39943195853444_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# What one grid point computes

At the extended reals, one block of the kernel is a gather followed by a projection.

* The block of row-in-group indices, laid along 2560 columns and compared with the column number, is the one-hot
  matrix `H[r, k] = [hm r = k]`; its product with the folded table `E` (2560 × 512) picks row `hm r` of the
  table: `(H E)[r, c] = E[hm r, c]`, a sum with one nonzero term.
* For `g = 0 … 3` the mask `[hq r = g]` multiplies columns `[128 g, 128 g + 128)` of that product; summed from zero
  the four terms leave the block of the row's own group: entry `(r, p)` is `E[hm r, 128 (hq r) + p]`.
* That 1024 × 128 block times the 128 × 512 operand `P` is, at `(r, c)`, `∑ p, E[hm r, 128 (hq r) + p] * P[p, c]`.

On the extended reals `0 * x = 0` for every `x` (`⊤` and `⊥` included), so no entry needs to be finite.
-/

noncomputable section

open scoped BigOperators

namespace Cert.KernelIdeal.BlockValue

open Idealize.ShloMosaic Idealize.ShloMosaic.ValueIdx Cert.KernelIdeal Cert.KernelIdeal.Gen

/-! ## Words -/

/-- Two 32-bit words written from naturals below `2 ^ 32` are equal exactly when the naturals are. -/
theorem ofNat_eq_iff {m n : Nat} (hm : m < 2 ^ 32) (hn : n < 2 ^ 32) :
    BitVec.ofNat 32 m = BitVec.ofNat 32 n ↔ m = n := by
  constructor
  · intro h
    have h' := congrArg BitVec.toNat h
    rw [BitVec.toNat_ofNat, BitVec.toNat_ofNat, Nat.mod_eq_of_lt hm, Nat.mod_eq_of_lt hn] at h'
    exact h'
  · intro h
    rw [h]

/-- The comparison bit of two words, widened to 32 bits and converted to a float, is the indicator of their equality:
    the bit `1` is the integer `1`, the bit `0` the integer `0`. -/
theorem indicator (x y : BitVec 32) :
    (FloatOps.sitofp (F := Ideal) .f32 ((IntOp.cmpi .eq x y).setWidth 32) : EReal) = if x = y then 1 else 0 := by
  by_cases h : x = y
  · have hb : IntOp.cmpi .eq x y = 1#1 := by
      subst h
      simp [IntOp.cmpi]
    rw [if_pos h, hb]
    show (((BitVec.setWidth 32 1#1).toInt : ℝ) : EReal) = 1
    have e : (BitVec.setWidth 32 1#1).toInt = 1 := by decide
    rw [e]
    simp
  · have hb : IntOp.cmpi .eq x y = 0#1 := by
      show BitVec.ofBool (x == y) = 0#1
      rw [beq_eq_false_iff_ne.mpr h]
      rfl
    rw [if_neg h, hb]
    show (((BitVec.setWidth 32 0#1).toInt : ℝ) : EReal) = 0
    have e : (BitVec.setWidth 32 0#1).toInt = 0 := by decide
    rw [e]
    simp

/-! ## A column laid along many columns -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products read at an entry

Each product contracts the left operand's axis 1 with the right operand's axis 0 into a zero accumulator, so at
`(r, c)` it is `∑ k, L[r, k] * R[k, c]`. -/

theorem lhs1_0 (j : S1024x512.Idx) (k : dot_S1024x2560_S2560x512_S1024x512_1_0_0_1_n_n.contr.Idx) :
    (dot_S1024x2560_S2560x512_S1024x512_1_0_0_1_n_n.lhsIdx j k 0).val = (j 0).val := rfl
theorem lhs1_1 (j : S1024x512.Idx) (k : dot_S1024x2560_S2560x512_S1024x512_1_0_0_1_n_n.contr.Idx) :
    (dot_S1024x2560_S2560x512_S1024x512_1_0_0_1_n_n.lhsIdx j k 1).val = (k ⟨0, by decide⟩).val := rfl
theorem rhs1_0 (j : S1024x512.Idx) (k : dot_S1024x2560_S2560x512_S1024x512_1_0_0_1_n_n.contr.Idx) :
    (dot_S1024x2560_S2560x512_S1024x512_1_0_0_1_n_n.rhsIdx j k 0).val = (k ⟨0, by decide⟩).val := rfl
theorem rhs1_1 (j : S1024x512.Idx) (k : dot_S1024x2560_S2560x512_S1024x512_1_0_0_1_n_n.contr.Idx) :
    (dot_S1024x2560_S2560x512_S1024x512_1_0_0_1_n_n.rhsIdx j k 1).val = (j 1).val := rfl

/-- The 1024 × 2560 by 2560 × 512 product into zero, at `(r, c)`. -/
theorem matmul1_apply (L : FVec Ideal S1024x2560 .bf16) (R : FVec Ideal S2560x512 .bf16) (r : Fin 1024) (c : Fin 512) :
    matmul dot_S1024x2560_S2560x512_S1024x512_1_0_0_1_n_n none L R (constant (F := Ideal) S1024x512 .f32 0x00000000#32) (ix2 r c)
      = ∑ k : Fin 2560, L (ix2 r k) * R (ix2 k c) := by
  refine (Ideal.matmul_constant_zero_apply dot_S1024x2560_S2560x512_S1024x512_1_0_0_1_n_n none L R (ix2 r c)).trans ?_
  refine (Equiv.sum_comp (contrEquiv1 dot_S1024x2560_S2560x512_S1024x512_1_0_0_1_n_n 2560 rfl rfl).symm
    (fun k => L (dot_S1024x2560_S2560x512_S1024x512_1_0_0_1_n_n.lhsIdx (ix2 r c) k)
      * R (dot_S1024x2560_S2560x512_S1024x512_1_0_0_1_n_n.rhsIdx (ix2 r c) k))).symm.trans ?_
  refine Finset.sum_congr rfl fun k _ => ?_
  have hl : dot_S1024x2560_S2560x512_S1024x512_1_0_0_1_n_n.lhsIdx (ix2 r c)
      ((contrEquiv1 dot_S1024x2560_S2560x512_S1024x512_1_0_0_1_n_n 2560 rfl rfl).symm k) = ix2 r k := by
    funext ax
    refine Fin.ext ?_
    match ax with
    | ⟨0, _⟩ => exact lhs1_0 _ _
    | ⟨1, _⟩ => exact (lhs1_1 _ _).trans (contrEquiv1_symm_val dot_S1024x2560_S2560x512_S1024x512_1_0_0_1_n_n 2560 rfl rfl k)
  have hr : dot_S1024x2560_S2560x512_S1024x512_1_0_0_1_n_n.rhsIdx (ix2 r c)
      ((contrEquiv1 dot_S1024x2560_S2560x512_S1024x512_1_0_0_1_n_n 2560 rfl rfl).symm k) = ix2 k c := by
    funext ax
    refine Fin.ext ?_
    match ax with
    | ⟨0, _⟩ => exact (rhs1_0 _ _).trans (contrEquiv1_symm_val dot_S1024x2560_S2560x512_S1024x512_1_0_0_1_n_n 2560 rfl rfl k)
    | ⟨1, _⟩ => exact rhs1_1 _ _
  show L _ * R _ = _
  rw [hl, hr]

theorem lhs2_0 (j : S1024x512.Idx) (k : dot_S1024x128_S128x512_S1024x512_1_0_0_1_n_n.contr.Idx) :
    (dot_S1024x128_S128x512_S1024x512_1_0_0_1_n_n.lhsIdx j k 0).val = (j 0).val := rfl
theorem lhs2_1 (j : S1024x512.Idx) (k : dot_S1024x128_S128x512_S1024x512_1_0_0_1_n_n.contr.Idx) :
    (dot_S1024x128_S128x512_S1024x512_1_0_0_1_n_n.lhsIdx j k 1).val = (k ⟨0, by decide⟩).val := rfl
theorem rhs2_0 (j : S1024x512.Idx) (k : dot_S1024x128_S128x512_S1024x512_1_0_0_1_n_n.contr.Idx) :
    (dot_S1024x128_S128x512_S1024x512_1_0_0_1_n_n.rhsIdx j k 0).val = (k ⟨0, by decide⟩).val := rfl
theorem rhs2_1 (j : S1024x512.Idx) (k : dot_S1024x128_S128x512_S1024x512_1_0_0_1_n_n.contr.Idx) :
    (dot_S1024x128_S128x512_S1024x512_1_0_0_1_n_n.rhsIdx j k 1).val = (j 1).val := rfl

/-- The 1024 × 128 by 128 × 512 product into zero, at `(r, c)`. -/
theorem matmul2_apply (L : FVec Ideal S1024x128 .bf16) (R : FVec Ideal S128x512 .bf16) (r : Fin 1024) (c : Fin 512) :
    matmul dot_S1024x128_S128x512_S1024x512_1_0_0_1_n_n none L R (constant (F := Ideal) S1024x512 .f32 0x00000000#32) (ix2 r c)
      = ∑ p : Fin 128, L (ix2 r p) * R (ix2 p c) := by
  refine (Ideal.matmul_constant_zero_apply dot_S1024x128_S128x512_S1024x512_1_0_0_1_n_n none L R (ix2 r c)).trans ?_
  refine (Equiv.sum_comp (contrEquiv1 dot_S1024x128_S128x512_S1024x512_1_0_0_1_n_n 128 rfl rfl).symm
    (fun k => L (dot_S1024x128_S128x512_S1024x512_1_0_0_1_n_n.lhsIdx (ix2 r c) k)
      * R (dot_S1024x128_S128x512_S1024x512_1_0_0_1_n_n.rhsIdx (ix2 r c) k))).symm.trans ?_
  refine Finset.sum_congr rfl fun p _ => ?_
  have hl : dot_S1024x128_S128x512_S1024x512_1_0_0_1_n_n.lhsIdx (ix2 r c)
      ((contrEquiv1 dot_S1024x128_S128x512_S1024x512_1_0_0_1_n_n 128 rfl rfl).symm p) = ix2 r p := by
    funext ax
    refine Fin.ext ?_
    match ax with
    | ⟨0, _⟩ => exact lhs2_0 _ _
    | ⟨1, _⟩ => exact (lhs2_1 _ _).trans (contrEquiv1_symm_val dot_S1024x128_S128x512_S1024x512_1_0_0_1_n_n 128 rfl rfl p)
  have hr : dot_S1024x128_S128x512_S1024x512_1_0_0_1_n_n.rhsIdx (ix2 r c)
      ((contrEquiv1 dot_S1024x128_S128x512_S1024x512_1_0_0_1_n_n 128 rfl rfl).symm p) = ix2 p c := by
    funext ax
    refine Fin.ext ?_
    match ax with
    | ⟨0, _⟩ => exact (rhs2_0 _ _).trans (contrEquiv1_symm_val dot_S1024x128_S128x512_S1024x512_1_0_0_1_n_n 128 rfl rfl p)
    | ⟨1, _⟩ => exact rhs2_1 _ _
  show L _ * R _ = _
  rw [hl, hr]

/-! ## The one-hot matrix and the row it picks -/

/-- The row-in-group indices laid along 2560 columns: entry `(r, k)` is the word `hm r`. -/
def rowWords (hm : Vec Ideal S1024x1 .i32) : IVec S1024x2560 32 :=
  broadcastTo S1024x2560 (shapeCast S1024x1 hm shapeCasts_S1024x1_S1024x1) broadcasts_S1024x1_S1024x2560

theorem rowWords_apply (hm : Vec Ideal S1024x1 .i32) (r : Fin 1024) (k : Fin 2560) :
    rowWords hm (ix2 r k) = hm (ix2 r (0 : Fin 1)) :=
  (broadcastTo_a1_ab_apply _ _ r k).trans (congrFun (shapeCast_self hm shapeCasts_S1024x1_S1024x1) _)

/-- The column numbers laid along 1024 rows: entry `(r, k)` is the word `k`. -/
def colWords : IVec S1024x2560 32 :=
  broadcastTo S1024x2560 (iota .tc S1x2560 32 [1] iota_S1x2560_d1_w32) broadcasts_S1x2560_S1024x2560

theorem colWords_apply (r : Fin 1024) (k : Fin 2560) : colWords (ix2 r k) = BitVec.ofNat 32 k.val :=
  (broadcastTo_1b_ab_apply _ _ r k).trans
    (iota_single_apply .tc S1x2560 32 1 iota_S1x2560_d1_w32 (ix2 (0 : Fin 1) k))

/-- The one-hot matrix `H`: the two laid-out arrays compared, the bit widened, converted and rounded. -/
def onehot (hm : Vec Ideal S1024x1 .i32) : FVec Ideal S1024x2560 .bf16 :=
  truncf .bf16 (sitofp .f32 (extui 32 (cmpi .eq (rowWords hm) colWords) natLt_1_32)) bitsLt_bf16_f32

/-- `H[r, k] = [hm r = k]`. -/
theorem onehot_apply (hm : Vec Ideal S1024x1 .i32) (r : Fin 1024) (k : Fin 2560) :
    (onehot hm (ix2 r k) : EReal) = if hm (ix2 r (0 : Fin 1)) = BitVec.ofNat 32 k.val then 1 else 0 := by
  refine (indicator (rowWords hm (ix2 r k)) (colWords (ix2 r k))).trans ?_
  rw [rowWords_apply, colWords_apply]

/-- The product `H E` of the one-hot matrix with the folded table. -/
def rowsel (hm : Vec Ideal S1024x1 .i32) (E : Vec Ideal S2560x512 .bf16) : FVec Ideal S1024x512 .f32 :=
  matmul dot_S1024x2560_S2560x512_S1024x512_1_0_0_1_n_n none (onehot hm)
    (shapeCast S2560x512 E shapeCasts_S2560x512_S2560x512 : FVec Ideal S2560x512 .bf16)
    (constant (F := Ideal) S1024x512 .f32 0x00000000#32)

/-- `(H E)[r, c] = E[hm r, c]`: of the 2560 terms of the sum only `k = hm r` is not zero, and there the factor is one. -/
theorem rowsel_apply (hm : Vec Ideal S1024x1 .i32) (E : Vec Ideal S2560x512 .bf16) (r : Fin 1024) (c : Fin 512)
    (a : Fin 2560) (ha : hm (ix2 r (0 : Fin 1)) = BitVec.ofNat 32 a.val) :
    (rowsel hm E (ix2 r c) : EReal) = E (ix2 a c) := by
  refine (matmul1_apply (onehot hm) _ r c).trans ?_
  rw [shapeCast_self, Finset.sum_eq_single a]
  · rw [onehot_apply, ha, if_pos rfl, one_mul]
  · intro k _ hk
    have hne : ¬ BitVec.ofNat 32 a.val = BitVec.ofNat 32 k.val := fun h =>
      hk (Fin.ext ((ofNat_eq_iff (Nat.lt_of_lt_of_le a.isLt (by decide)) (Nat.lt_of_lt_of_le k.isLt (by decide))).mp h).symm)
    rw [onehot_apply, ha, if_neg hne, zero_mul]
  · intro h
    exact absurd (Finset.mem_univ a) h

/-! ## The masks and the block they keep -/

/-- The mask of group `w`: the group indices compared with the word `w`, the bit widened and converted, laid along
    128 columns. -/
def mask (hq : Vec Ideal S1024x1 .i32) (w : BitVec 32) : FVec Ideal S1024x128 .f32 :=
  broadcastTo S1024x128
    (sitofp .f32 (extui 32 (cmpi .eq (shapeCast S1024x1 hq shapeCasts_S1024x1_S1024x1) (broadcast S1024x1 w)) natLt_1_32))
    broadcasts_S1024x1_S1024x128

/-- The mask at `(r, p)` is `[hq r = w]`. -/
theorem mask_apply (hq : Vec Ideal S1024x1 .i32) (w : BitVec 32) (r : Fin 1024) (p : Fin 128) :
    (mask hq w (ix2 r p) : EReal) = if hq (ix2 r (0 : Fin 1)) = w then 1 else 0 := by
  refine (broadcastTo_a1_ab_apply _ _ r p).trans ?_
  refine (indicator (shapeCast S1024x1 hq shapeCasts_S1024x1_S1024x1 (ix2 r (0 : Fin 1))) w).trans ?_
  rw [shapeCast_self]

/-- For a row of group `g` the mask of group `n` (below four) is `[g = n]`. -/
theorem mask_of_group (hq : Vec Ideal S1024x1 .i32) (r : Fin 1024) (p : Fin 128) (g : Fin 4)
    (hg : hq (ix2 r (0 : Fin 1)) = BitVec.ofNat 32 g.val) (n : ℕ) (hn : n < 4) :
    (mask hq (BitVec.ofNat 32 n) (ix2 r p) : EReal) = if g.val = n then 1 else 0 := by
  rw [mask_apply, hg]
  by_cases h : g.val = n
  · rw [if_pos h, if_pos (by rw [h])]
  · have hne : ¬ BitVec.ofNat 32 g.val = BitVec.ofNat 32 n := fun h' =>
      h ((ofNat_eq_iff (Nat.lt_of_lt_of_le g.isLt (by decide)) (Nat.lt_of_lt_of_le hn (by decide))).mp h')
    rw [if_neg h, if_neg hne]

/-- The gather, as the kernel's text builds it: the four masked column blocks of `H E`, summed from zero. -/
theorem k0_pay2_eq (hm hq : Vec Ideal S1024x1 .i32) (E : Vec Ideal S2560x512 .bf16) :
    k0_pay2 (F := Ideal) hm hq E =
      addf (addf (addf (addf (broadcast S1024x128 (Scalar.ofBits (F := Ideal) .f32 0x00000000#32))
        (mulf (mask hq 0#32) (extractStridedSlice S1024x128 ![0, 0] (rowsel hm E) slices_S1024x512_o0_0_S1024x128)))
        (mulf (mask hq 1#32) (extractStridedSlice S1024x128 ![0, 128] (rowsel hm E) slices_S1024x512_o0_128_S1024x128)))
        (mulf (mask hq 2#32) (extractStridedSlice S1024x128 ![0, 256] (rowsel hm E) slices_S1024x512_o0_256_S1024x128)))
        (mulf (mask hq 3#32) (extractStridedSlice S1024x128 ![0, 384] (rowsel hm E) slices_S1024x512_o0_384_S1024x128)) := rfl

/-- Entry `(r, p)` of the gathered block: the row's table entry `E[a, 128 g + p]`, for a row whose index in its group is
    `a` and whose group is `g`. -/
theorem gathered_value (hm hq : Vec Ideal S1024x1 .i32) (E : Vec Ideal S2560x512 .bf16)
    (r : Fin 1024) (p : Fin 128) (a : Fin 2560) (g : Fin 4)
    (ha : hm (ix2 r (0 : Fin 1)) = BitVec.ofNat 32 a.val) (hg : hq (ix2 r (0 : Fin 1)) = BitVec.ofNat 32 g.val) :
    (k0_pay2 (F := Ideal) hm hq E (ix2 r p) : EReal) = E (ix2 a (⟨128 * g.val + p.val, by omega⟩ : Fin 512)) := by
  rw [k0_pay2_eq]
  show Ideal.ofBits .f32 0x00000000#32
      + mask hq (BitVec.ofNat 32 0) (ix2 r p)
        * extractStridedSlice S1024x128 ![0, 0] (rowsel hm E) slices_S1024x512_o0_0_S1024x128 (ix2 r p)
      + mask hq (BitVec.ofNat 32 1) (ix2 r p)
        * extractStridedSlice S1024x128 ![0, 128] (rowsel hm E) slices_S1024x512_o0_128_S1024x128 (ix2 r p)
      + mask hq (BitVec.ofNat 32 2) (ix2 r p)
        * extractStridedSlice S1024x128 ![0, 256] (rowsel hm E) slices_S1024x512_o0_256_S1024x128 (ix2 r p)
      + mask hq (BitVec.ofNat 32 3) (ix2 r p)
        * extractStridedSlice S1024x128 ![0, 384] (rowsel hm E) slices_S1024x512_o0_384_S1024x128 (ix2 r p) = _
  rw [Ideal.ofBits_zero_f32,
    mask_of_group hq r p g hg 0 (by decide), mask_of_group hq r p g hg 1 (by decide),
    mask_of_group hq r p g hg 2 (by decide), mask_of_group hq r p g hg 3 (by decide),
    slice2_axis1_eq 0 (rowsel hm E) slices_S1024x512_o0_0_S1024x128 r p,
    slice2_axis1_eq 128 (rowsel hm E) slices_S1024x512_o0_128_S1024x128 r p,
    slice2_axis1_eq 256 (rowsel hm E) slices_S1024x512_o0_256_S1024x128 r p,
    slice2_axis1_eq 384 (rowsel hm E) slices_S1024x512_o0_384_S1024x128 r p,
    rowsel_apply hm E r _ a ha, rowsel_apply hm E r _ a ha, rowsel_apply hm E r _ a ha, rowsel_apply hm E r _ a ha]
  obtain ⟨gv, hgv⟩ := g
  have h4 : gv = 0 ∨ gv = 1 ∨ gv = 2 ∨ gv = 3 := by omega
  rcases h4 with rfl | rfl | rfl | rfl <;> simp

/-! ## The block's value -/

/-- The projection, as the kernel's text builds it: the gathered block rounded, times the second operand, into zero. -/
theorem k0_pay1_eq (G : FVec Ideal S1024x128 .f32) (P : Vec Ideal S128x512 .bf16) :
    k0_pay1 (F := Ideal) G P =
      matmul dot_S1024x128_S128x512_S1024x512_1_0_0_1_n_n none
        (truncf .bf16 G bitsLt_bf16_f32 : FVec Ideal S1024x128 .bf16)
        (shapeCast S128x512 P shapeCasts_S128x512_S128x512 : FVec Ideal S128x512 .bf16)
        (constant (F := Ideal) S1024x512 .f32 0x00000000#32) := rfl

/-- Row r of the block, column c: the row's table entry E[a, 128 g + p], p over the 128 features, against column c of
    the second operand. -/
theorem block_value (hm hq : Vec Ideal S1024x1 .i32) (E : Vec Ideal S2560x512 .bf16) (P : Vec Ideal S128x512 .bf16)
    (r : Fin 1024) (c : Fin 512) (a : Fin 2560) (g : Fin 4)
    (ha : hm (ix2 r (0 : Fin 1)) = BitVec.ofNat 32 a.val) (hg : hq (ix2 r (0 : Fin 1)) = BitVec.ofNat 32 g.val) :
    k0_pay1 (F := Ideal) (k0_pay2 (F := Ideal) hm hq E) P (ix2 r c)
      = ∑ p : Fin 128, E (ix2 a (⟨128 * g.val + p.val, by omega⟩ : Fin 512)) * P (ix2 p c) := by
  rw [k0_pay1_eq]
  refine (matmul2_apply _ _ r c).trans ?_
  refine Finset.sum_congr rfl fun p _ => ?_
  rw [shapeCast_self]
  show (k0_pay2 (F := Ideal) hm hq E (ix2 r p) : EReal) * P (ix2 p c) = _
  rw [gathered_value hm hq E r p a g ha hg]

end Cert.KernelIdeal.BlockValue

end
-- ==== Proof.SpecInt.lean ====
/-
  The integer facts about the hash and the index arrays derived from it (Spec.lean's terms), each read at one position.

  The hash is a row number below 10240: column 0 is the constant 10239, and every other column is a remainder by 10239
  with the divisor's sign, which lies in [0, 10239). From a row number `h < 10240` jnp's remainder and floor division by
  2560 are the natural-number `h % 2560` and `h / 2560`, and jnp's index normalisation leaves `h` as it is.
-/
import proofs.«405215_j39943195853444_3_alg».proof.Proof.Spec
import Idealize.ShloMosaic.Lib.Pipeline.Value
import Idealize.ShloMosaic.Lib.WordArith

noncomputable section

namespace BigramGather

open Idealize.ShloMosaic Idealize.ShloMosaic.ValueIdx

/-! ## Words: the truncated remainder and quotient by a positive divisor -/

/-- Away from its corner (divisor 0, or the least word by -1) the signed remainder is the truncated one. -/
theorem remsi_host_eq (x D : BitVec 32) (hD0 : D ≠ 0#32) (hD1 : D ≠ -1#32) :
    IntOp.remsi ArithUnit.host x D = x.srem D := by
  unfold IntOp.remsi
  rw [if_neg]
  rintro (h | ⟨_, h⟩)
  · exact hD0 h
  · exact hD1 h

/-- Away from its corner the signed quotient is the truncated one. -/
theorem divsi_host_eq (x D : BitVec 32) (hD0 : D ≠ 0#32) (hD1 : D ≠ -1#32) :
    IntOp.divsi ArithUnit.host x D = x.sdiv D := by
  unfold IntOp.divsi
  rw [if_neg]
  rintro (h | ⟨_, h⟩)
  · exact hD0 h
  · exact hD1 h

/-- A word whose top bit is clear is below 2^31. -/
theorem toNat_lt_of_msb_false32 (D : BitVec 32) (hDm : D.msb = false) : D.toNat < 2147483648 := by
  have h := BitVec.msb_eq_decide D
  rw [hDm] at h
  simpa using h

/-- A word below 10240 has its top bit clear. -/
theorem msb_false_of_lt (v : BitVec 32) (h : v.toNat < 10240) : v.msb = false := by
  rw [BitVec.msb_eq_decide]
  exact decide_eq_false (by omega)

/-- jnp's remainder by a positive word `D` at one position: the truncated remainder `r`, plus `D` when `r` is negative
    (`D` being positive, "the signs differ and `r ≠ 0`" is "`r < 0`"). -/
theorem jrem_apply_core (S : Shape) (hb : T0.BroadcastsInDim S (![] : Fin 0 → Fin S.rank)) (x : IVec S 32)
    (D : BitVec 32) (hD0 : D ≠ 0#32) (hD1 : D ≠ -1#32) (hDs : D.slt 0#32 = false) (i : S.Idx) :
    jrem S hb x (constantI T0 32 D) i
      = if ((x i).srem D).slt 0#32 then (x i).srem D + D else (x i).srem D := by
  simp only [jrem, select, cmpi, andi, addi, Host.remsi, broadcastInDim, constantI, id]
  have hb0 : (D == 0#32) = false := by simpa using hD0
  have hsel : Scalar.select (IntOp.cmpi CmpIPredicate.eq D 0#32) (1#32) D = D := by
    simp [Scalar.select, IntOp.cmpi, hb0]
  have hsl : IntOp.cmpi CmpIPredicate.slt D 0#32 = 0#1 := by
    simp [IntOp.cmpi, hDs]
  rw [hsel, remsi_host_eq _ _ hD0 hD1, hsl]
  generalize (x i).srem D = r
  cases h : r.slt 0#32
  · simp [Scalar.select, IntOp.cmpi, IntOp.andi, IntOp.addi, h]
  · have hr0 : r ≠ 0#32 := by
      intro h0; subst h0; simp at h
    have hrb : (r != 0#32) = true := by simpa using hr0
    simp [Scalar.select, IntOp.cmpi, IntOp.andi, IntOp.addi, h, hrb]

/-- jnp's floor division of a non-negative word by a positive word `D` at one position is the unsigned quotient: the
    signs agree unless the word is 0, and then the remainder is 0, so the correction never fires. -/
theorem jfloordiv_apply_core (S : Shape) (hb : T0.BroadcastsInDim S (![] : Fin 0 → Fin S.rank)) (x : IVec S 32)
    (D : BitVec 32) (hD0 : D ≠ 0#32) (hD1 : D ≠ -1#32) (hDs : D.slt 0#32 = false) (i : S.Idx)
    (hx : (x i).msb = false) :
    jfloordiv S hb x (constantI T0 32 D) i = (x i) / D := by
  simp only [jfloordiv, select, cmpi, andi, subi, signi, Host.remsi, Host.divsi, broadcastInDim, constantI, id]
  have hDm : D.msb = false := by rw [← BitVec.slt_zero_eq_msb]; exact hDs
  rw [remsi_host_eq _ _ hD0 hD1, divsi_host_eq _ _ hD0 hD1]
  have hsd : (x i).sdiv D = x i / D := by
    rw [BitVec.sdiv_eq, hx, hDm]; rfl
  rw [hsd]
  generalize x i = y at hx
  by_cases hy : y = 0#32
  · subst hy
    simp [Scalar.select, IntOp.cmpi, IntOp.andi, IntOp.subi, hD0, hDm]
  · simp [Scalar.select, IntOp.cmpi, IntOp.andi, IntOp.subi, hy, hx, hDm, hD0]

/-- The remainder with the divisor's sign, by a positive word `D`, is below `D` for EVERY word: the truncated remainder
    lies strictly between `-D` and `D`, and a negative one is moved up by `D`. -/
theorem jremWord_lt (x D : BitVec 32) (hD0 : D ≠ 0#32) (hDm : D.msb = false) :
    (if (x.srem D).slt 0#32 then x.srem D + D else x.srem D).toNat < D.toNat := by
  have hDi : D.toInt = (D.toNat : Int) := BitVec.toInt_eq_toNat_of_msb hDm
  have hDlt := toNat_lt_of_msb_false32 D hDm
  have hDpos : 0 < D.toNat := by
    rcases Nat.eq_zero_or_pos D.toNat with h | h
    · exact absurd (BitVec.eq_of_toNat_eq (by simpa using h)) hD0
    · exact h
  have hr := BitVec.toInt_srem x D
  have h1 := Int.tmod_lt_of_pos x.toInt (b := D.toInt) (by omega)
  have h2 := Int.lt_tmod_of_pos x.toInt (b := D.toInt) (by omega)
  rw [← hr] at h1 h2
  generalize x.srem D = r at *
  have hc := BitVec.toInt_eq_toNat_cond r
  have hrlt := r.isLt
  by_cases hs : r.slt 0#32 = true
  · rw [if_pos hs, BitVec.toNat_add]
    have hneg : r.toInt < 0 := by
      have := BitVec.slt_iff_toInt_lt.mp hs
      simpa using this
    split at hc <;> omega
  · rw [if_neg hs]
    have hnn : ¬ r.toInt < 0 := by
      intro hlt
      apply hs
      apply BitVec.slt_iff_toInt_lt.mpr
      simpa using hlt
    split at hc <;> omega

/-- For a non-negative word the remainder with the divisor's sign, by a positive `D`, is the natural-number remainder. -/
theorem jremWord_of_nonneg (x D : BitVec 32) (hDm : D.msb = false) (hx : x.msb = false) :
    (if (x.srem D).slt 0#32 then x.srem D + D else x.srem D) = BitVec.ofNat 32 (x.toNat % D.toNat) := by
  have hxlt := toNat_lt_of_msb_false32 x hx
  have hsr : x.srem D = x % D := by rw [BitVec.srem_eq, hx, hDm]
  have hm : (x % D).toNat = x.toNat % D.toNat := BitVec.toNat_umod
  have hle : x.toNat % D.toNat ≤ x.toNat := Nat.mod_le _ _
  have hns : ¬ ((x % D).slt 0#32 = true) := by
    rw [BitVec.slt_zero_eq_msb, BitVec.msb_eq_decide]
    simp only [decide_eq_true_eq]
    omega
  rw [hsr, if_neg hns]
  apply BitVec.eq_of_toNat_eq
  rw [hm, BitVec.toNat_ofNat]
  exact (Nat.mod_eq_of_lt (by omega)).symm

/-- The unsigned quotient of two words is the word of the natural-number quotient. -/
theorem udiv_eq_ofNat (x D : BitVec 32) : x / D = BitVec.ofNat 32 (x.toNat / D.toNat) := by
  apply BitVec.eq_of_toNat_eq
  have hle : x.toNat / D.toNat ≤ x.toNat := Nat.div_le_self _ _
  have := x.isLt
  rw [BitVec.toNat_udiv, BitVec.toNat_ofNat]
  exact (Nat.mod_eq_of_lt (by omega)).symm

/-! ## The hash at one position -/

/-- Column 0 of the hash is the constant 10239 (the first block of the concatenation). -/
theorem hashOf_ix2_zero (tok : IVec T8x8192 32) (b : Fin 8) :
    hashOf tok (ix2 b (0 : Fin 8192)) = 10239#32 := by
  unfold hashOf
  refine (concatenate_pair_apply_left (1 : Fin T8x8192.rank) _ _ cat_hash (ix2 b (0 : Fin 8192)) rfl
    (ix2 b (0 : Fin 1)) ?_).trans ?_
  · intro c
    match c with
    | ⟨0, _⟩ => rfl
    | ⟨1, _⟩ => rfl
  · rfl

/-- Column `s + 1` of the hash is the remainder block at column `s` (the second block of the concatenation). -/
theorem hashOf_ix2_succ (tok : IVec T8x8192 32) (b : Fin 8) (s : Fin 8191) :
    hashOf tok (ix2 b (⟨s.val + 1, by omega⟩ : Fin 8192))
      = jrem T8x8191 bc_8x8191 (mixed tok) (constantI T0 32 10239#32) (ix2 b s) := by
  unfold hashOf
  refine concatenate_pair_apply_right (1 : Fin T8x8192.rank) _ _ cat_hash
    (ix2 b (⟨s.val + 1, by omega⟩ : Fin 8192)) rfl rfl (ix2 b s) ?_ ?_
  · intro c hc
    match c with
    | ⟨0, _⟩ => rfl
    | ⟨1, _⟩ => exact absurd rfl hc
  · rfl

/-- Every hash is a row number of the 10240-row table. -/
theorem hashOf_lt (tok : IVec T8x8192 32) (i : T8x8192.Idx) : (hashOf tok i).toNat < 10240 := by
  obtain ⟨b, s, rfl⟩ : ∃ (b : Fin 8) (s : Fin 8192), i = ix2 b s := ⟨i 0, i 1, eq_ix2 i⟩
  by_cases hs : s.val = 0
  · have e : s = (0 : Fin 8192) := Fin.ext hs
    rw [e, hashOf_ix2_zero]
    decide
  · have e : s = (⟨(⟨s.val - 1, by omega⟩ : Fin 8191).val + 1, by omega⟩ : Fin 8192) := Fin.ext (by simp; omega)
    rw [e, hashOf_ix2_succ, jrem_apply_core _ _ _ _ (by decide) (by decide) (by decide)]
    have h := jremWord_lt (mixed tok (ix2 b (⟨s.val - 1, by omega⟩ : Fin 8191))) 10239#32 (by decide) (by decide)
    have hD : (10239#32 : BitVec 32).toNat = 10239 := by decide
    omega

/-- The column of hashes at row `8192 b + s` is the hash of position `(b, s)`. -/
theorem hashCol_apply (tok : IVec T8x8192 32) (b : Fin 8) (s : Fin 8192) :
    hashCol tok (ix2 (⟨8192 * b.val + s.val, by omega⟩ : Fin 65536) (0 : Fin 1)) = hashOf tok (ix2 b s) := by
  unfold hashCol
  refine shapeCast_apply (hashOf tok) cast_hash _ (ix2 b s) ?_
  rw [Shape.rowMajor_val_two, Shape.rowMajor_val_two]
  show b.val * 8192 + s.val = (8192 * b.val + s.val) * 1 + 0
  omega

/-- Every entry of the column is a row number too. -/
theorem hashCol_lt (tok : IVec T8x8192 32) (j : T65536x1.Idx) : (hashCol tok j).toNat < 10240 := by
  obtain ⟨r, c, rfl⟩ : ∃ (r : Fin 65536) (c : Fin 1), j = ix2 r c := ⟨j 0, j 1, eq_ix2 j⟩
  have hr := r.isLt
  have e : ix2 r c = ix2 (⟨8192 * (⟨r.val / 8192, by omega⟩ : Fin 8).val + (⟨r.val % 8192, by omega⟩ : Fin 8192).val, by omega⟩ : Fin 65536) (0 : Fin 1) := by
    congr 1
    · exact Fin.ext (by simp; omega)
    · exact Fin.ext (by have := c.isLt; show c.val = 0; omega)
  rw [e, hashCol_apply]
  exact hashOf_lt tok _

/-- The row-within-group index is the hash mod 2560. -/
theorem hmodOf_apply (tok : IVec T8x8192 32) (j : T65536x1.Idx) :
    hmodOf tok j = BitVec.ofNat 32 ((hashCol tok j).toNat % 2560) := by
  unfold hmodOf
  rw [jrem_apply_core _ _ _ _ (by decide) (by decide) (by decide),
    jremWord_of_nonneg _ _ (by decide) (msb_false_of_lt _ (hashCol_lt tok j))]
  rfl

/-- The group index is the hash divided by 2560. -/
theorem hqOf_apply (tok : IVec T8x8192 32) (j : T65536x1.Idx) :
    hqOf tok j = BitVec.ofNat 32 ((hashCol tok j).toNat / 2560) := by
  unfold hqOf
  rw [jfloordiv_apply_core _ _ _ _ (by decide) (by decide) (by decide) _ (msb_false_of_lt _ (hashCol_lt tok j)),
    udiv_eq_ofNat]
  rfl

/-- jnp's index normalisation leaves a hash as it is (it is never negative). -/
theorem normIdx_apply (tok : IVec T8x8192 32) (b : Fin 8) (s : Fin 8192) :
    normIdx (hashOf tok) (ix3 b s (0 : Fin 1)) = hashOf tok (ix2 b s) := by
  unfold normIdx
  refine (broadcastInDim_apply (![0, 1] : Fin 2 → Fin T8x8192x1.rank) bc_idx _ (ix3 b s (0 : Fin 1)) (ix2 b s) ?_).trans ?_
  · intro a
    match a with
    | ⟨0, _⟩ => rfl
    | ⟨1, _⟩ => rfl
  · simp only [select, cmpi, broadcastInDim, constantI]
    have hm := msb_false_of_lt _ (hashOf_lt tok (ix2 b s))
    have hsl : IntOp.cmpi CmpIPredicate.slt (hashOf tok (ix2 b s)) 0#32 = 0#1 := by
      simp [IntOp.cmpi, BitVec.slt_zero_eq_msb, hm]
    rw [hsl, select_zero]

end BigramGather

end
-- ==== Proof.SpecLayout.lean ====
/-
  Three layout facts about the terms of the specification, each read at one index, at the ideal instance:
  the folded table, the scaled transposed projection, and the reshape of the 65536 x 512 result to 8 x 8192 x 512.
-/
import proofs.«405215_j39943195853444_3_alg».proof.Proof.Spec
import Idealize.ShloMosaic.Lib.ValueIdx
import Idealize.ShloMosaic.Lib.Pipeline.Value
import Idealize.ShloMosaic.Lib.ValueLayout
import Idealize.ShloMosaic.Lib.IdealHost

noncomputable section

namespace BigramGather

open Idealize.ShloMosaic Idealize.ShloMosaic.ValueIdx

/-- Off the concatenation axis (axis 1), the index (k, p) of a piece and the index (k, c) of the whole agree. -/
private theorem off_axis (k : Fin 2560) (p : Fin 128) (c : Fin 512) :
    ∀ b : Fin T2560x128.rank, b.cast (rfl : T2560x128.rank = T2560x512.rank) ≠ (1 : Fin T2560x512.rank) →
      ((ix2 k p : T2560x128.Idx) b).val = ((ix2 k c : T2560x512.Idx) (b.cast rfl)).val := fun b hb =>
  match b, hb with
  | ⟨0, _⟩, _ => rfl
  | ⟨1, _⟩, hb => absurd rfl hb

/-- The folded table: row k, column 128 g + p holds the table's row 2560 g + k, feature p. -/
theorem e4Of_apply (embed : FVec Ideal T10240x128 .f32) (k : Fin 2560) (g : Fin 4) (p : Fin 128) :
    e4Of (F := Ideal) embed (ix2 k (⟨128 * g.val + p.val, by omega⟩ : Fin 512)) = embed (ix2 (⟨2560 * g.val + k.val, by omega⟩ : Fin 10240) p) := by
  unfold e4Of
  match g with
  | ⟨0, _⟩ =>
    -- piece 0: no columns before it; its rows start at row 0 of the table
    refine (concatenate_apply_piece (1 : Fin T2560x512.rank) _ _ _ 0 (by show (0 : ℕ) < 4; omega) T2560x128 _ rfl rfl 0 rfl (ix2 k p)
      (off_axis k p _) (by show 0 + p.val = 128 * 0 + p.val; omega)).trans ?_
    exact slice2_axis0_apply 0 _ sl_e_0 k p _ (by show 2560 * 0 + k.val = 0 + k.val; omega)
  | ⟨1, _⟩ =>
    refine (concatenate_apply_piece (1 : Fin T2560x512.rank) _ _ _ 1 (by show (1 : ℕ) < 4; omega) T2560x128 _ rfl rfl 128 rfl (ix2 k p)
      (off_axis k p _) (by show 128 + p.val = 128 * 1 + p.val; omega)).trans ?_
    exact slice2_axis0_apply 2560 _ sl_e_1 k p _ (by show 2560 * 1 + k.val = 2560 + k.val; omega)
  | ⟨2, _⟩ =>
    refine (concatenate_apply_piece (1 : Fin T2560x512.rank) _ _ _ 2 (by show (2 : ℕ) < 4; omega) T2560x128 _ rfl rfl 256 rfl (ix2 k p)
      (off_axis k p _) (by show 256 + p.val = 128 * 2 + p.val; omega)).trans ?_
    exact slice2_axis0_apply 5120 _ sl_e_2 k p _ (by show 2560 * 2 + k.val = 5120 + k.val; omega)
  | ⟨3, _⟩ =>
    refine (concatenate_apply_piece (1 : Fin T2560x512.rank) _ _ _ 3 (by show (3 : ℕ) < 4; omega) T2560x128 _ rfl rfl 384 rfl (ix2 k p)
      (off_axis k p _) (by show 384 + p.val = 128 * 3 + p.val; omega)).trans ?_
    exact slice2_axis0_apply 7680 _ sl_e_3 k p _ (by show 2560 * 3 + k.val = 7680 + k.val; omega)

/-- The scaled, transposed projection: entry (p, c) is proj[c, p] times the scale. -/
theorem projtOf_apply (proj : FVec Ideal T512x128 .f32) (scale : FVec Ideal T0 .f32) (p : Fin 128) (c : Fin 512) :
    projtOf (F := Ideal) proj scale (ix2 p c) = proj (ix2 c p) * scale ix0 := by
  unfold projtOf
  -- rounding is the identity and the product is entrywise at the ideal instance
  rw [truncf_apply, mulf_apply, transpose_ix2_apply, broadcastInDim_scalar_apply]

/-- The 65536 x 512 array read as 8 x 8192 x 512: entry (b, s, c) is row 8192 b + s, column c. -/
theorem cast_out_apply {α : Type} (X : T65536x512.Idx → α) (b : Fin 8) (s : Fin 8192) (c : Fin 512) :
    shapeCast T8x8192x512 X cast_out (ix3 b s c) = X (ix2 (⟨8192 * b.val + s.val, by omega⟩ : Fin 65536) c) := by
  -- both indices have row-major position (8192 b + s) 512 + c
  refine shapeCast_apply X cast_out _ _ ?_
  rw [Shape.rowMajor_val_two, Shape.rowMajor_val_three]
  show (8192 * b.val + s.val) * 512 + c.val = (b.val * 8192 + s.val) * 512 + c.val
  omega

end BigramGather

end
-- ==== Proof.FiniteAlgebra.lean ====
/-
  Finiteness of the float arguments, and the one algebraic law that joins the kernel's arrangement to the reference's.

  The precondition `jnp.all(|embed| < inf) & jnp.all(|proj| < inf) & jnp.all(|scale| < inf)`, read at the ideal instance
  (floats are extended reals), says that every entry of the table, of the projection and the scale is a real number:
  an extended real `x` with `max x (-x) < ⊤` is neither `⊤` nor `⊥`.

  The kernel contracts the hashed table row against the projection ALREADY scaled, `∑ p, e p · (w p · σ)`; the reference
  scales the contracted product, `(∑ p, e p · w p) · σ`. On the extended reals the two differ in general (the product
  does not distribute over a sum that meets `⊤ + ⊥`); on real entries they agree, by distributivity and associativity in
  the reals and because the inclusion of the reals carries products to products and finite sums to finite sums.
-/
import proofs.«405215_j39943195853444_3_alg».proof.Proof.Spec
import proofs.«405215_j39943195853444_3_alg».proof.Proof.Gen.Pre_finite_inputs
import Idealize.ShloMosaic.PureOps.Ideal.Laws
import Idealize.ShloMosaic.Lib.ReduceAll
import Idealize.ShloMosaic.Lib.ValueIdx
import Mathlib.Data.EReal.Basic
import Mathlib.Algebra.BigOperators.Ring.Finset

noncomputable section

namespace BigramGather

open Idealize.ShloMosaic
open scoped BigOperators

/-! ## Finiteness out of the precondition -/

/-- An extended real whose absolute value `max x (-x)` is below `+∞` is a real number: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The precondition's test on one entry, `|x| < +∞` with `+∞` given by its 32-bit pattern `0x7F800000`: where it
    answers 1, `x` is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  refine real_of_abs_lt_top x ?_
  by_contra hn
  simp [Ideal.cmp, hn] at h

/-- Under the precondition every entry of the table and of the projection, and the scale, is a real number. The
    precondition is a conjunction of three `all`s; each `all` that is 1 gives its test at every index, and the test at an
    index is `real_of_cmp`'s. -/
theorem finite_of_pre (tok : IVec Cert.Pre_finite_inputs.S8x8192 32) (embed : FVec Ideal Cert.Pre_finite_inputs.S10240x128 .f32)
    (proj : FVec Ideal Cert.Pre_finite_inputs.S512x128 .f32) (scale : FVec Ideal Cert.Pre_finite_inputs.S_ .f32)
    (h : Cert.Pre_finite_inputs.fn (F := Ideal) tok embed proj scale = fun _ => 1#1) :
    (∃ e : Cert.Pre_finite_inputs.S10240x128.Idx → ℝ, embed = fun i => ((e i : ℝ) : EReal)) ∧
    (∃ w : Cert.Pre_finite_inputs.S512x128.Idx → ℝ, proj = fun i => ((w i : ℝ) : EReal)) ∧
    (∃ σ : ℝ, scale = fun _ => ((σ : ℝ) : EReal)) := by
  -- the scalar shape has one index
  haveI : Subsingleton Cert.Pre_finite_inputs.S_.Idx := ⟨fun a b => funext fun d => d.elim0⟩
  have h0 := congrFun h ValueIdx.ix0
  dsimp only [Cert.Pre_finite_inputs.fn] at h0
  -- the conjunction, split into its three `all`s
  obtain ⟨h12, h3⟩ := IntOp.andi_eq_one.1 h0
  obtain ⟨h1, h2⟩ := IntOp.andi_eq_one.1 h12
  have he : ∀ i, ∃ r : ℝ, embed i = (r : EReal) := fun i =>
    real_of_cmp (embed i) (Host.reduce_andi_all _ _ _ _ _ h1 i)
  have hw : ∀ i, ∃ r : ℝ, proj i = (r : EReal) := fun i =>
    real_of_cmp (proj i) (Host.reduce_andi_all _ _ _ _ _ h2 i)
  have hs : ∃ r : ℝ, scale ValueIdx.ix0 = (r : EReal) :=
    real_of_cmp (scale ValueIdx.ix0) (Host.reduce_andi_all _ _ _ _ _ h3 ValueIdx.ix0)
  refine ⟨⟨fun i => (he i).choose, funext fun i => (he i).choose_spec⟩,
    ⟨fun i => (hw i).choose, funext fun i => (hw i).choose_spec⟩, ?_⟩
  obtain ⟨σ, hσ⟩ := hs
  exact ⟨σ, funext fun j => by rw [ValueIdx.eq_ix0 j]; exact hσ⟩

/-! ## The algebraic law -/

/-- The inclusion of the reals in the extended reals carries a finite sum to the sum of the images. -/
theorem coe_sum_fin (s : Finset (Fin 128)) (f : Fin 128 → ℝ) :
    ((∑ p ∈ s, f p : ℝ) : EReal) = ∑ p ∈ s, ((f p : ℝ) : EReal) := by
  induction s using Finset.induction_on with
  | empty => simp
  | insert a s ha ih => rw [Finset.sum_insert ha, Finset.sum_insert ha, EReal.coe_add, ih]

/-- On real entries, contracting against the scaled projection is scaling the contraction: in the reals this is
    distributivity and associativity of the product; the extended reals agree with the reals on real arguments. -/
theorem sum_mul_scale (e w : Fin 128 → ℝ) (σ : ℝ) :
    (∑ p : Fin 128, ((e p : ℝ) : EReal) * (((w p : ℝ) : EReal) * ((σ : ℝ) : EReal))) =
      (∑ p : Fin 128, ((e p : ℝ) : EReal) * ((w p : ℝ) : EReal)) * ((σ : ℝ) : EReal) := by
  have h1 : ∀ p : Fin 128, ((e p : ℝ) : EReal) * (((w p : ℝ) : EReal) * ((σ : ℝ) : EReal)) = ((e p * w p * σ : ℝ) : EReal) :=
    fun p => by rw [mul_assoc (e p) (w p) σ, EReal.coe_mul, EReal.coe_mul]
  have h2 : ∀ p : Fin 128, ((e p : ℝ) : EReal) * ((w p : ℝ) : EReal) = ((e p * w p : ℝ) : EReal) :=
    fun p => (EReal.coe_mul _ _).symm
  rw [Finset.sum_congr rfl (fun p _ => h1 p), Finset.sum_congr rfl (fun p _ => h2 p), ← coe_sum_fin, ← coe_sum_fin,
    ← EReal.coe_mul, Finset.sum_mul]

/-! ## The kernel's arrangement -/

/-- The kernel's arrangement: the hashed row of the table against the projection scaled entry by entry. -/
def Gk (tok : IVec T8x8192 32) (embed : T10240x128.Idx → EReal) (proj : T512x128.Idx → EReal) (scale : T0.Idx → EReal) :
    T8x8192x512.Idx → EReal := fun i =>
  ∑ p : Fin 128, embed (ValueIdx.ix2 (⟨(hashOf tok (ValueIdx.ix2 (i 0) (i 1))).toNat % 10240, Nat.mod_lt _ (by decide)⟩ : Fin 10240) p)
    * (proj (ValueIdx.ix2 (i 2) p) * scale ValueIdx.ix0)

/-- On real arguments the kernel's arrangement is `G`: entry by entry, the law above. -/
theorem Gk_eq_G (tok : IVec T8x8192 32) (embed : T10240x128.Idx → EReal) (proj : T512x128.Idx → EReal) (scale : T0.Idx → EReal)
    (he : ∃ e : T10240x128.Idx → ℝ, embed = fun i => ((e i : ℝ) : EReal))
    (hw : ∃ w : T512x128.Idx → ℝ, proj = fun i => ((w i : ℝ) : EReal))
    (hs : ∃ σ : ℝ, scale = fun _ => ((σ : ℝ) : EReal)) :
    Gk tok embed proj scale = G tok embed proj scale := by
  obtain ⟨e, rfl⟩ := he
  obtain ⟨w, rfl⟩ := hw
  obtain ⟨σ, rfl⟩ := hs
  funext i
  exact sum_mul_scale
    (fun p => e (ValueIdx.ix2 (⟨(hashOf tok (ValueIdx.ix2 (i 0) (i 1))).toNat % 10240, Nat.mod_lt _ (by decide)⟩ : Fin 10240) p))
    (fun p => w (ValueIdx.ix2 (i 2) p)) σ

end BigramGather

end
-- ==== Proof.KernelValue.lean ====
/-
  The kernel's result as one function of its argument arrays, at the ideal instance.

  At grid point `t` the body turns rows `1024 t … 1024 t + 1023` of the two index arrays, the folded table and the scaled
  projection into rows `1024 t … 1024 t + 1023` of the output: row `R = 1024 t + r`, column `q` is
  `∑ p, E4[h mod 2560, 128 (h div 2560) + p] · P[p, q]` with `h` the hash of row `R`, that is
  `∑ p, embed[h, p] · (proj[q, p] · scale)`: entry `(R div 8192, R mod 8192, q)` of the kernel's arrangement `Gk`.
  The 64 blocks tile the output array, so after the run the array is that function of its index; the reshape after the
  region reads it as 8 x 8192 x 512. On finite arguments `Gk` is `G`.
-/
import proofs.«405215_j39943195853444_3_alg».proof.Proof.KernelIdealFrame
import proofs.«405215_j39943195853444_3_alg».proof.Proof.KernelHost
import proofs.«405215_j39943195853444_3_alg».proof.Proof.KernelBlocks
import proofs.«405215_j39943195853444_3_alg».proof.Proof.BlockValue
import proofs.«405215_j39943195853444_3_alg».proof.Proof.SpecInt
import proofs.«405215_j39943195853444_3_alg».proof.Proof.SpecLayout
import proofs.«405215_j39943195853444_3_alg».proof.Proof.FiniteAlgebra
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Fr Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments as launched, at their literal types -/

/-- The token array on core `c`. -/
abbrev tokA (c : Dev nD) : IVec BigramGather.T8x8192 32 := m ((c : Thread nD τ).loc main_arg0)
/-- The embedding table on core `c`. -/
abbrev embA (c : Dev nD) : BigramGather.T10240x128.Idx → EReal := m ((c : Thread nD τ).loc main_arg1)
/-- The projection on core `c`. -/
abbrev projA (c : Dev nD) : BigramGather.T512x128.Idx → EReal := m ((c : Thread nD τ).loc main_arg2)
/-- The scale on core `c`. -/
abbrev scaleA (c : Dev nD) : BigramGather.T0.Idx → EReal := m ((c : Thread nD τ).loc main_arg3)

/-! ## The four operands as the region finds them -/

theorem V_hmod (c : Dev nD) : V m c main_v11 = BigramGather.hmodOf (m ((c : Thread nD τ).loc main_arg0)) :=
  HostVal.entry_hmod (fun b => m (c, b))
theorem V_hq (c : Dev nD) : V m c main_v12 = BigramGather.hqOf (m ((c : Thread nD τ).loc main_arg0)) :=
  HostVal.entry_hq (fun b => m (c, b))
theorem V_e4 (c : Dev nD) : V m c main_v18 = BigramGather.e4Of (F := Ideal) (m ((c : Thread nD τ).loc main_arg1)) :=
  HostVal.entry_e4 (fun b => m (c, b))
theorem V_projt (c : Dev nD) :
    V m c main_v22 = BigramGather.projtOf (F := Ideal) (m ((c : Thread nD τ).loc main_arg2)) (m ((c : Thread nD τ).loc main_arg3)) :=
  HostVal.entry_projt (fun b => m (c, b))

/-! ## The output array, row by row -/

/-- Row `R` of the 65536 is position `(R div 8192, R mod 8192)`. -/
theorem pos_lt (R : Fin 65536) : R.val / 8192 < 8 ∧ R.val % 8192 < 8192 := by
  have := R.isLt
  omega

/-- Row `R`, column `q` of what the output array ends holding: the kernel's arrangement at position
    `(R div 8192, R mod 8192)`, feature `q`. -/
def rowOut (c : Dev nD) (R : Fin 65536) (q : Fin 512) : EReal :=
  BigramGather.Gk (tokA m c) (embA m c) (projA m c) (scaleA m c)
    (ix3 (⟨R.val / 8192, (pos_lt R).1⟩ : Fin 8) (⟨R.val % 8192, (pos_lt R).2⟩ : Fin 8192) q)

/-- The output array after the run. -/
def flat (c : Dev nD) : Buf (Elt Ideal) ((c : Thread nD τ).loc main_v23) := fun i => rowOut m c (i 0) (i 1)

/-- The hash of row `R`, read in the column of hashes, is the hash of its position. -/
theorem hashCol_row (tok : IVec BigramGather.T8x8192 32) (R : Fin 65536) :
    BigramGather.hashCol tok (ix2 R (0 : Fin 1))
      = BigramGather.hashOf tok (ix2 (⟨R.val / 8192, (pos_lt R).1⟩ : Fin 8) (⟨R.val % 8192, (pos_lt R).2⟩ : Fin 8192)) := by
  have h := BigramGather.hashCol_apply tok (⟨R.val / 8192, (pos_lt R).1⟩ : Fin 8) (⟨R.val % 8192, (pos_lt R).2⟩ : Fin 8192)
  rw [← h]
  congr 2
  apply Fin.ext
  show R.val = 8192 * (R.val / 8192) + R.val % 8192
  omega

/-- Block row `r` of the first index window at point `t` holds the hash of row `1024 t + r` mod 2560. -/
theorem hm_at (c : Dev nD) (t : Fin cfg0.N) (r : Fin 1024) : iblk m c 0 t (ix2 r (0 : Fin 1))
      = BitVec.ofNat 32 ((BigramGather.hashCol (m ((c : Thread nD τ).loc main_arg0)) (ix2 (⟨1024 * t.val + r.val, row_lt t r⟩ : Fin 65536) (0 : Fin 1))).toNat % 2560) := by
  refine (read_hmod c (V m c main_v11) t r).trans ?_
  rw [V_hmod, BigramGather.hmodOf_apply]

/-- Block row `r` of the second index window at point `t` holds the hash of row `1024 t + r` divided by 2560. -/
theorem hq_at (c : Dev nD) (t : Fin cfg0.N) (r : Fin 1024) : iblk m c 1 t (ix2 r (0 : Fin 1))
      = BitVec.ofNat 32 ((BigramGather.hashCol (m ((c : Thread nD τ).loc main_arg0)) (ix2 (⟨1024 * t.val + r.val, row_lt t r⟩ : Fin 65536) (0 : Fin 1))).toNat / 2560) := by
  refine (read_hq c (V m c main_v12) t r).trans ?_
  rw [V_hq, BigramGather.hqOf_apply]

/-- The table window holds the folded table: row `k`, column `128 g + p` is the table's row `2560 g + k`, feature `p`. -/
theorem tab_at (c : Dev nD) (t : Fin cfg0.N) (k : Fin 2560) (g : Fin 4) (p : Fin 128) :
    iblk m c 2 t (ix2 k (⟨128 * g.val + p.val, by omega⟩ : Fin 512))
      = embA m c (ix2 (⟨2560 * g.val + k.val, by omega⟩ : Fin 10240) p) := by
  refine (read_e4 c (V m c main_v18) t k _).trans ?_
  rw [V_e4]
  exact BigramGather.e4Of_apply _ k g p

/-- The projection window holds the projection transposed and scaled. -/
theorem proj_at (c : Dev nD) (t : Fin cfg0.N) (p : Fin 128) (q : Fin 512) :
    iblk m c 3 t (ix2 p q)
      = projA m c (ix2 q p) * scaleA m c ix0 := by
  refine (read_projt c (V m c main_v22) t p q).trans ?_
  rw [V_projt]
  exact BigramGather.projtOf_apply _ _ p q

/-- WHAT POINT `t` WRITES BACK is block `t` of `flat`. -/
theorem flushed_out (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4, outBlock_eq]
  funext j
  obtain ⟨r, q, rfl⟩ : ∃ (r : Fin 1024) (q : Fin 512), j = ix2 r q := ⟨j 0, j 1, eq_ix2 j⟩
  rw [read_out c (flat m c) t r q]
  -- the hash of the row this block row is, as a natural number below 10240
  have hlt := BigramGather.hashCol_lt (m ((c : Thread nD τ).loc main_arg0)) (ix2 (⟨1024 * t.val + r.val, row_lt t r⟩ : Fin 65536) (0 : Fin 1))
  have hrow := hashCol_row (m ((c : Thread nD τ).loc main_arg0)) (⟨1024 * t.val + r.val, row_lt t r⟩ : Fin 65536)
  have ha := hm_at m c t r
  have hg := hq_at m c t r
  obtain ⟨h, hh⟩ : ∃ h : Nat, h = (BigramGather.hashCol (m ((c : Thread nD τ).loc main_arg0)) (ix2 (⟨1024 * t.val + r.val, row_lt t r⟩ : Fin 65536) (0 : Fin 1))).toNat := ⟨_, rfl⟩
  rw [← hh] at hlt ha hg
  refine (BlockValue.block_value (iblk m c 0 t) (iblk m c 1 t) (iblk m c 2 t) (iblk m c 3 t) r q
    (⟨h % 2560, Nat.mod_lt _ (by decide)⟩ : Fin 2560) (⟨h / 2560, by omega⟩ : Fin 4) ha hg).trans ?_
  show _ = rowOut m c (⟨1024 * t.val + r.val, row_lt t r⟩ : Fin 65536) q
  unfold rowOut BigramGather.Gk
  refine Finset.sum_congr rfl fun p _ => ?_
  rw [tab_at m c t (⟨h % 2560, Nat.mod_lt _ (by decide)⟩ : Fin 2560) (⟨h / 2560, by omega⟩ : Fin 4) p, proj_at m c t p q]
  -- the row 2560 (h div 2560) + h mod 2560 is h, and h is below 10240
  refine congrArg₂ (· * ·) (congrArg (fun i : Fin 10240 => embA m c (ix2 i p)) (Fin.ext ?_)) rfl
  show 2560 * (h / 2560) + h % 2560
    = (BigramGather.hashOf (tokA m c) (ix2 (⟨(1024 * t.val + r.val) / 8192, (pos_lt ⟨1024 * t.val + r.val, row_lt t r⟩).1⟩ : Fin 8)
        (⟨(1024 * t.val + r.val) % 8192, (pos_lt ⟨1024 * t.val + r.val, row_lt t r⟩).2⟩ : Fin 8192))).toNat % 10240
  rw [← hrow, ← hh]
  omega

/-- THE OUTPUT ARRAY after the run is `flat`: the 64 blocks tile it. -/
theorem final_out (c : Dev nD) : (dats m 0 c).arrAt 4 cfg0.N = flat m c :=
  (dats m 0 c).arrAt_eq_of_cover 4 (flat m c) (fun t _ => flushed_out m c t) out_cover

/-! ## The result after the reshape -/

/-- The result buffer after the host line that follows the region: the output array read as 8 x 8192 x 512, which is the
    kernel's arrangement `Gk` of the arguments as launched. -/
theorem result_eq (c : Dev nD) :
    Pipeline.afterTail₀ cfgs (dats m) 0 (V0 m) [hostOps1] c main_v24
      = BigramGather.Gk (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v24) = _
  simp only [hostOps1]
  after_results
  rw [(Pipeline.withArrays_arr spec0 launch0.win.arr_inj c _ _ 4).trans (final_out m c)]
  funext i
  obtain ⟨b, s, q, rfl⟩ : ∃ (b : Fin 8) (s : Fin 8192) (q : Fin 512), i = ix3 b s q := ⟨i 0, i 1, i 2, eq_ix3 i⟩
  refine (BigramGather.cast_out_apply (flat m c) b s q).trans ?_
  show rowOut m c _ q = _
  unfold rowOut
  congr 2
  · apply Fin.ext; show (8192 * b.val + s.val) / 8192 = b.val; have := s.isLt; omega
  · apply Fin.ext; show (8192 * b.val + s.val) % 8192 = s.val; have := s.isLt; omega

/-! ## The run -/

/-- Every weakly fair execution of the kernel's program ends with the result at `Gk` of the arguments and the arguments
    unchanged. -/
theorem run : θ_run defs (onTc (τ := τ) (main (F := Ideal))) ⟨m, fun _ => 0, ρ⟩ fun r => ∀ c : Dev nD,
      r.2.mem ((c.tc : Thread nD τ).loc main_v24)
          = BigramGather.Gk (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v24 (Pipeline.mem_restRefs_of main_v24 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KValue

end
-- ==== Proof.RefRun.lean ====
/-
  The run of the reference program: @main as the list of its 46 operations (the call of @remainder written out
  at its call site: the 21 operations of its body, the select of @_where among them, over the call's own buffers),
  and what each buffer holds once they have run in order: the result buffer holds `BigramGather.refOut` of the four
  arguments' launch contents, and the four argument buffers hold what they held.
-/
import proofs.«405215_j39943195853444_3_alg».proof.Proof.Gen.ReferenceIdeal
import proofs.«405215_j39943195853444_3_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 46 operations, in order. The first ten build the xor of the two multiplied neighbour slices and the
    divisor 10239; the next twenty-one are @remainder's body at that pair (the divisor converted, replaced by 1 when it
    is 0 — @_where's select —, the truncated remainder, and the divisor added back where the remainder is not zero and
    its sign differs from the divisor's); the last fifteen prepend the constant column, wrap negative indices by 10240,
    gather the table rows, contract them with the projection and scale. -/
abbrev ops : List (HloOp τ sig (Elt F)) :=
  [ unary main_arg0 main_v0 ((extractStridedSlice S8x8191 ![0, 1] · slices_S8x8192_S8x8191_0_1) : (⟨S8x8192, .i32⟩ : BufTy).Contents (Elt F) → (⟨S8x8191, .i32⟩ : BufTy).Contents (Elt F)),
    nullary main_c (constantI S_ 32 36313#32),
    unary main_c main_v1 (broadcastInDim S8x8191 ![] bcast_S_S8x8191 : (⟨S_, .i32⟩ : BufTy).Contents (Elt F) → (⟨S8x8191, .i32⟩ : BufTy).Contents (Elt F)),
    binary main_v1 main_v0 main_v2 (muli : (⟨S8x8191, .i32⟩ : BufTy).Contents (Elt F) → (⟨S8x8191, .i32⟩ : BufTy).Contents (Elt F) → (⟨S8x8191, .i32⟩ : BufTy).Contents (Elt F)),
    unary main_arg0 main_v3 ((extractStridedSlice S8x8191 ![0, 0] · slices_S8x8192_S8x8191_0_0) : (⟨S8x8192, .i32⟩ : BufTy).Contents (Elt F) → (⟨S8x8191, .i32⟩ : BufTy).Contents (Elt F)),
    nullary main_c_0 (constantI S_ 32 27191#32),
    unary main_c_0 main_v4 (broadcastInDim S8x8191 ![] bcast_S_S8x8191 : (⟨S_, .i32⟩ : BufTy).Contents (Elt F) → (⟨S8x8191, .i32⟩ : BufTy).Contents (Elt F)),
    binary main_v4 main_v3 main_v5 (muli : (⟨S8x8191, .i32⟩ : BufTy).Contents (Elt F) → (⟨S8x8191, .i32⟩ : BufTy).Contents (Elt F) → (⟨S8x8191, .i32⟩ : BufTy).Contents (Elt F)),
    binary main_v2 main_v5 main_v6 (xori : (⟨S8x8191, .i32⟩ : BufTy).Contents (Elt F) → (⟨S8x8191, .i32⟩ : BufTy).Contents (Elt F) → (⟨S8x8191, .i32⟩ : BufTy).Contents (Elt F)),
    nullary main_c_1 (constantI S_ 32 10239#32),
    TRef.unary (.of main_c_1 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8x8191 ![] bcast_S_S8x8191),
    TRef.binary (.of main_v6 : TRef sig ⟨S8x8191, .i32⟩) main_call0.v3 main_call0.v4 Host.remsi,
    TRef.nullary main_call0.c_1 (constantI S_ 32 0#32),
    TRef.unary main_call0.c_1 main_call0.v5 (broadcastInDim S8x8191 ![] bcast_S_S8x8191),
    TRef.binary main_call0.v4 main_call0.v5 main_call0.v6 (cmpi .ne),
    TRef.nullary main_call0.c_2 (constantI S_ 32 0#32),
    TRef.unary main_call0.c_2 main_call0.v7 (broadcastInDim S8x8191 ![] bcast_S_S8x8191),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8x8191 ![] bcast_S_S8x8191),
    TRef.binary main_call0.v8 main_call0.v10 main_call0.v11 (cmpi .ne),
    TRef.binary main_call0.v11 main_call0.v6 main_call0.v12 andi,
    TRef.unary main_call0.call0.v0 main_call0.v13 (broadcastInDim S8x8191 ![] bcast_S_S8x8191),
    TRef.binary main_call0.v4 main_call0.v13 main_call0.v14 addi,
    TRef.ternary main_call0.v12 main_call0.v14 main_call0.v4 main_call0.v15 select,
    nullary main_c_2 (constantI S_ 32 10239#32),
    unary main_c_2 main_v8 (broadcastInDim S8x1 ![] bcast_S_S8x1 : (⟨S_, .i32⟩ : BufTy).Contents (Elt F) → (⟨S8x1, .i32⟩ : BufTy).Contents (Elt F)),
    binary main_v8 main_v7 main_v9 ((fun a b => concatenate S8x8192 1 [⟨S8x1, a⟩, ⟨S8x8191, b⟩] concatenates_S8x1_S8x8191_S8x8192_d1) : (⟨S8x1, .i32⟩ : BufTy).Contents (Elt F) → (⟨S8x8191, .i32⟩ : BufTy).Contents (Elt F) → (⟨S8x8192, .i32⟩ : BufTy).Contents (Elt F)),
    nullary main_c_3 (constantI S_ 32 0#32),
    unary main_c_3 main_v10 (broadcastInDim S8x8192 ![] bcast_S_S8x8192 : (⟨S_, .i32⟩ : BufTy).Contents (Elt F) → (⟨S8x8192, .i32⟩ : BufTy).Contents (Elt F)),
    binary main_v9 main_v10 main_v11 (cmpi .slt : (⟨S8x8192, .i32⟩ : BufTy).Contents (Elt F) → (⟨S8x8192, .i32⟩ : BufTy).Contents (Elt F) → (⟨S8x8192, .i1⟩ : BufTy).Contents (Elt F)),
    nullary main_c_4 (constantI S_ 32 10240#32),
    unary main_c_4 main_v12 (broadcastInDim S8x8192 ![] bcast_S_S8x8192 : (⟨S_, .i32⟩ : BufTy).Contents (Elt F) → (⟨S8x8192, .i32⟩ : BufTy).Contents (Elt F)),
    binary main_v9 main_v12 main_v13 (addi : (⟨S8x8192, .i32⟩ : BufTy).Contents (Elt F) → (⟨S8x8192, .i32⟩ : BufTy).Contents (Elt F) → (⟨S8x8192, .i32⟩ : BufTy).Contents (Elt F)),
    ternary main_v11 main_v13 main_v9 main_v14 (select : (⟨S8x8192, .i1⟩ : BufTy).Contents (Elt F) → (⟨S8x8192, .i32⟩ : BufTy).Contents (Elt F) → (⟨S8x8192, .i32⟩ : BufTy).Contents (Elt F) → (⟨S8x8192, .i32⟩ : BufTy).Contents (Elt F)),
    unary main_v14 main_v15 (broadcastInDim S8x8192x1 ![0, 1] bcast_S8x8192_S8x8192x1_0_1 : (⟨S8x8192, .i32⟩ : BufTy).Contents (Elt F) → (⟨S8x8192x1, .i32⟩ : BufTy).Contents (Elt F)),
    binary main_arg1 main_v15 main_v16 ((fun x i => Host.gather gather_S10240x128_S8x8192x1_S8x8192x128_2_0_n_n_0_2_1128 x i) : (⟨S10240x128, .f32⟩ : BufTy).Contents (Elt F) → (⟨S8x8192x1, .i32⟩ : BufTy).Contents (Elt F) → (⟨S8x8192x128, .f32⟩ : BufTy).Contents (Elt F)),
    binary main_v16 main_arg2 main_v17 ((fun l r => Host.dotGeneral dot_S8x8192x128_S512x128_S8x8192x512_2_1_01_0_n_n none l r) : (⟨S8x8192x128, .f32⟩ : BufTy).Contents (Elt F) → (⟨S512x128, .f32⟩ : BufTy).Contents (Elt F) → (⟨S8x8192x512, .f32⟩ : BufTy).Contents (Elt F)),
    unary main_arg3 main_v18 (broadcastInDim S8x8192x512 ![] bcast_S_S8x8192x512 : (⟨S_, .f32⟩ : BufTy).Contents (Elt F) → (⟨S8x8192x512, .f32⟩ : BufTy).Contents (Elt F)),
    binary main_v17 main_v18 main_v19 (mulf : (⟨S8x8192x512, .f32⟩ : BufTy).Contents (Elt F) → (⟨S8x8192x512, .f32⟩ : BufTy).Contents (Elt F) → (⟨S8x8192x512, .f32⟩ : BufTy).Contents (Elt F)) ]

-- forty-six steps in sequence: re-associating them recurses once per step
set_option maxRecDepth 1024 in
/-- @main is that straight line: @remainder's and @_where's definitions unfolded at their calls and the call's record
    at its fields, both sides are one chain of steps once sequencing is reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., unary_bufs_sub .., nullary_bufs_sub ..,
    unary_bufs_sub .., binary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.remsi concatenate in
set_option maxRecDepth 8192 in
set_option maxHeartbeats 400000 in
/-- The fold at the result buffer is the specification's term of the four arguments: the fold unrolled, each
    operation's result at its own buffer rewritten to its function's value and at any other buffer to what was there
    (the two references told apart by decision); what is left is the reference's composed term over the
    arguments' contents, which is the specification's by computation (the typed references' transports are the
    identity at these literal references, the shapes the same literals, the two dimension records the same fields).
    The gather, the truncated remainder and the concatenation are kept folded meanwhile: the equation never looks
    inside them. -/
theorem out_eq (V : Valuation τ sig (Elt F)) :
    after ops V (main_v19 : DevRef τ sig)
      = BigramGather.refOut (V (main_arg0 : DevRef τ sig)) (V (main_arg1 : DevRef τ sig)) (V (main_arg2 : DevRef τ sig))
          (V (main_arg3 : DevRef τ sig)) := by
  after_results_simp
  rfl

/-- No operation writes an argument's buffer: each argument holds at the end what it held at launch. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of
    @main terminates with the result buffer at the specification's term of the four arguments' launch contents
    and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = BigramGather.refOut (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v19).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRun

end
-- ==== Proof.RefValue.lean ====
/-
  The reference's composed term is the function `G`, index by index, at the ideal values (extended reals).

  Three readings at an index, then their composition:
    * the row gather at `[b, s, p]` is the table at row `clamp(idx[b, s, 0])`, column `p` (the start index read signed
      and clamped into `[0, 10239]`; the offset coordinate `p` runs along the row);
    * the projection at `[b, s, c]` is `∑ p, A[b, s, p] · B[c, p]` (one contracted axis, re-indexed by its coordinate);
    * the broadcast scale at any index is the scalar.
  A hash is below 10240, so the index normalisation, the clamp and the remainder mod 10240 all leave it as it is, and
  the reference's entry at `[b, s, c]` is `(∑ p, embed[h[b, s], p] · proj[c, p]) · scale`, which is `G`.
-/
import proofs.«405215_j39943195853444_3_alg».proof.Proof.SpecInt
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace BigramGather

open Idealize.ShloMosaic Idealize.ShloMosaic.ValueIdx

/-! ## The row gather read at an index -/

/-- On the table's row axis the gather reads the start index `idx[b, s, 0]`, signed, clamped into `[0, 10239]`: that axis
    is collapsed (slice size 1), so no offset is added, and there are no batching axes. -/
theorem gatherRows_row {w : Nat} (idx : IVec T8x8192x1 w) (b : Fin 8) (s : Fin 8192) (p : Fin 128) :
    (gatherRows.operandIdx (ix3 b s p) idx (0 : Fin 2)).val = min (idx (ix3 b s (0 : Fin 1))).toInt.toNat 10239 := by
  show gatherRows.start (ix3 b s p) idx 0 + gatherRows.batchCoord (ix3 b s p) 0 + gatherRows.offCoord (ix3 b s p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gatherRows.startIndexMap from List.mem_singleton.mpr rfl)]
  have hsi : gatherRows.siIdx (ix3 b s p) ⟨List.idxOf (0 : Fin 2) gatherRows.startIndexMap,
      List.idxOf_lt_length_iff.2 (List.mem_singleton.mpr rfl)⟩ = ix3 b s (0 : Fin 1) := by
    funext a; refine Fin.ext ?_
    match a with
    | ⟨0, _⟩ => rfl
    | ⟨1, _⟩ => rfl
    | ⟨2, _⟩ => rfl
  rw [hsi]
  rfl

/-- On the table's column axis the gather reads the result's offset coordinate `p`: the start index map does not name
    that axis, so the slice starts at 0. -/
theorem gatherRows_col {w : Nat} (idx : IVec T8x8192x1 w) (b : Fin 8) (s : Fin 8192) (p : Fin 128) :
    (gatherRows.operandIdx (ix3 b s p) idx (1 : Fin 2)).val = p.val := by
  show gatherRows.start (ix3 b s p) idx 1 + gatherRows.batchCoord (ix3 b s p) 1 + gatherRows.offCoord (ix3 b s p) 1 = _
  rw [GatherDims.batchCoord_eq_zero _ _ _ List.not_mem_nil]
  unfold GatherDims.start
  rw [dif_neg (show (1 : Fin 2) ∉ gatherRows.startIndexMap by decide)]
  have hk : (1 : Fin 2) ∈ gatherRows.sKept := by decide
  unfold GatherDims.offCoord
  rw [dif_pos hk]
  have key : ∀ (q : Fin 3), q.val = 2 → ((ix3 b s p : T8x8192x128.Idx) q).val = p.val := by
    intro q hq
    obtain rfl : q = ⟨2, by decide⟩ := Fin.ext hq
    rfl
  simp only [Nat.zero_add]
  exact key _ (by decide +revert)

/-- The gathered array at `[b, s, p]` is the table at the clamped start row and column `p`. -/
theorem gatherRows_apply {α : Type} {w : Nat} (x : T10240x128.Idx → α) (idx : IVec T8x8192x1 w)
    (b : Fin 8) (s : Fin 8192) (p : Fin 128) :
    Host.gather gatherRows x idx (ix3 b s p)
      = x (ix2 (⟨min (idx (ix3 b s (0 : Fin 1))).toInt.toNat 10239, Nat.lt_succ_of_le (Nat.min_le_right _ 10239)⟩ : Fin 10240) p) := by
  unfold Host.gather
  congr 1
  funext a
  refine Fin.ext ?_
  match a with
  | ⟨0, _⟩ => exact gatherRows_row idx b s p
  | ⟨1, _⟩ => exact gatherRows_col idx b s p

/-! ## The projection read at an index

The left operand `[8, 8192, 128]` keeps axes 0 and 1 (the result's axes 0 and 1) and contracts axis 2; the right operand
`[512, 128]` keeps axis 0 (the result's axis 2) and contracts axis 1. -/

theorem dotProj_lhs_0 (b : Fin 8) (s : Fin 8192) (c : Fin 512) (k : dotProj.contr.Idx) :
    (dotProj.lhsIdx (ix3 b s c) k (0 : Fin 3)).val = b.val := by
  unfold DotDims.lhsIdx
  rw [dif_neg (show ¬(0 : Fin 3) ∈ dotProj.lhsBatch from List.not_mem_nil),
    dif_pos (show (0 : Fin 3) ∈ dotProj.lhsNonContracting by decide)]
  rfl

theorem dotProj_lhs_1 (b : Fin 8) (s : Fin 8192) (c : Fin 512) (k : dotProj.contr.Idx) :
    (dotProj.lhsIdx (ix3 b s c) k (1 : Fin 3)).val = s.val := by
  unfold DotDims.lhsIdx
  rw [dif_neg (show ¬(1 : Fin 3) ∈ dotProj.lhsBatch from List.not_mem_nil),
    dif_pos (show (1 : Fin 3) ∈ dotProj.lhsNonContracting by decide)]
  rfl

theorem dotProj_lhs_2 (b : Fin 8) (s : Fin 8192) (c : Fin 512) (k : dotProj.contr.Idx) :
    (dotProj.lhsIdx (ix3 b s c) k (2 : Fin 3)).val = (k ⟨0, by decide⟩).val :=
  DotDims.lhsIdx_val_of_single dotProj (cl := (2 : Fin 3)) rfl (ix3 b s c) k

theorem dotProj_rhs_0 (b : Fin 8) (s : Fin 8192) (c : Fin 512) (k : dotProj.contr.Idx) :
    (dotProj.rhsIdx (ix3 b s c) k (0 : Fin 2)).val = c.val := by
  unfold DotDims.rhsIdx
  rw [dif_neg (show ¬(0 : Fin 2) ∈ dotProj.rhsBatch from List.not_mem_nil),
    dif_pos (show (0 : Fin 2) ∈ dotProj.rhsNonContracting by decide)]
  rfl

theorem dotProj_rhs_1 (b : Fin 8) (s : Fin 8192) (c : Fin 512) (k : dotProj.contr.Idx) :
    (dotProj.rhsIdx (ix3 b s c) k (1 : Fin 2)).val = (k ⟨0, by decide⟩).val :=
  DotDims.rhsIdx_val_of_single dotProj (cr := (1 : Fin 2)) rfl (ix3 b s c) k

/-- The projection at `[b, s, c]`: the sum over the 128 contracted coordinates of the products of the entries. -/
theorem dotProj_apply (A : FVec Ideal T8x8192x128 .f32) (B : FVec Ideal T512x128 .f32)
    (b : Fin 8) (s : Fin 8192) (c : Fin 512) :
    Host.dotGeneral dotProj none A B (ix3 b s c) = ∑ p : Fin 128, A (ix3 b s p) * B (ix2 c p) := by
  show FloatOps.dotGeneral dotProj none _ A B (ix3 b s c) = _
  rw [Ideal.dotGeneral_apply, ← Equiv.sum_comp (contrEquiv1 dotProj 128 rfl rfl).symm]
  refine Finset.sum_congr rfl fun p _ => ?_
  have hp := contrEquiv1_symm_val dotProj 128 rfl rfl p
  have hl : dotProj.lhsIdx (ix3 b s c) ((contrEquiv1 dotProj 128 rfl rfl).symm p) = ix3 b s p := by
    funext a; refine Fin.ext ?_
    match a with
    | ⟨0, _⟩ => exact dotProj_lhs_0 b s c _
    | ⟨1, _⟩ => exact dotProj_lhs_1 b s c _
    | ⟨2, _⟩ => exact (dotProj_lhs_2 b s c _).trans hp
  have hr : dotProj.rhsIdx (ix3 b s c) ((contrEquiv1 dotProj 128 rfl rfl).symm p) = ix2 c p := by
    funext a; refine Fin.ext ?_
    match a with
    | ⟨0, _⟩ => exact dotProj_rhs_0 b s c _
    | ⟨1, _⟩ => exact (dotProj_rhs_1 b s c _).trans hp
  rw [hl, hr]

/-! ## The scale broadcast read at an index -/

/-- A scalar broadcast to the whole result reads the scalar at every index. -/
theorem scale_apply {α : Type} (scale : T0.Idx → α) (i : T8x8192x512.Idx) :
    broadcastInDim T8x8192x512 ![] bc_8x8192x512 scale i = scale ix0 :=
  broadcastInDim_apply _ _ scale i ix0 (fun a => a.elim0)

/-! ## A hash as a table row: the clamp and the wrap both leave it as it is -/

/-- A word below 10240 is non-negative as a signed integer, is its own clamp into `[0, 10239]` and its own remainder mod
    10240. -/
theorem row_of_hash (h : BitVec 32) (hlt : h.toNat < 10240) :
    min h.toInt.toNat 10239 = h.toNat % 10240 := by
  have e : h.toInt = (h.toNat : Int) := BitVec.toInt_eq_toNat_of_lt (by omega)
  rw [e, Int.toNat_natCast, Nat.mod_eq_of_lt hlt]
  omega

/-- The row the gather reads at `(b, s)` is the hash of that position: the index normalisation leaves it, and it is below
    10240, so the clamp into `[0, 10239]` and the remainder mod 10240 both leave it too. -/
theorem row_eq (tok : IVec T8x8192 32) (b : Fin 8) (s : Fin 8192) :
    (⟨min (normIdx (hashOf tok) (ix3 b s (0 : Fin 1))).toInt.toNat 10239,
        Nat.lt_succ_of_le (Nat.min_le_right _ 10239)⟩ : Fin 10240)
      = ⟨(hashOf tok (ix2 b s)).toNat % 10240, Nat.mod_lt _ (by decide)⟩ :=
  Fin.ext ((congrArg (fun h : BitVec 32 => min h.toInt.toNat 10239) (normIdx_apply tok b s)).trans
    (row_of_hash _ (hashOf_lt tok (ix2 b s))))

/-! ## The reference's term is `G` -/

/-- The reference's entry at `[b, s, c]` is `G`'s: the scaled sum over `p` of the hashed row's entries times the projection's. -/
theorem refOut_apply (tok : IVec T8x8192 32) (embed : FVec Ideal T10240x128 .f32) (proj : FVec Ideal T512x128 .f32)
    (scale : FVec Ideal T0 .f32) (b : Fin 8) (s : Fin 8192) (c : Fin 512) :
    refOut (F := Ideal) tok embed proj scale (ix3 b s c) = G tok embed proj scale (ix3 b s c) := by
  unfold refOut
  rw [mulf_apply, scale_apply, dotProj_apply]
  show _ = (∑ p : Fin 128, embed (ix2 (⟨(hashOf tok (ix2 b s)).toNat % 10240, Nat.mod_lt _ (by decide)⟩ : Fin 10240) p)
      * proj (ix2 c p)) * scale ix0
  refine congrArg (· * scale ix0) (Finset.sum_congr rfl fun p _ => ?_)
  rw [gatherRows_apply, row_eq]

/-- The reference's term is `G`. -/
theorem refOut_eq_G (tok : IVec T8x8192 32) (embed : FVec Ideal T10240x128 .f32) (proj : FVec Ideal T512x128 .f32)
    (scale : FVec Ideal T0 .f32) :
    refOut (F := Ideal) tok embed proj scale = G tok embed proj scale := by
  funext i
  obtain ⟨b, s, c, rfl⟩ : ∃ (b : Fin 8) (s : Fin 8192) (c : Fin 512), i = ix3 b s c := ⟨i 0, i 1, i 2, eq_ix3 i⟩
  exact refOut_apply tok embed proj scale b s c

end BigramGather

end
-- ==== Proof.lean ====
/-
  The certificate of the bigram-hash embedding kernel against its jnp reference.

  Both programs hash every token position to a row number `h < 10240` of the embedding table (column 0 the constant
  10239, column s ≥ 1 the xor of the two multiplied neighbours reduced mod 10239 with a non-negative remainder). The
  reference gathers row `h`, contracts it against the projection over the 128 features and multiplies by the scale:
  `out[b, s, c] = (∑ p, embed[h, p] · proj[c, p]) · scale`. The kernel splits `h = 2560 g + a`, finds the row by a
  one-hot product against the table folded into four column groups followed by a four-way masked sum (at the ideal
  instance exactly `embed[h, ·]`: the products with 0 vanish and the products with 1 are the entries), and contracts it
  against the projection ALREADY multiplied by the scale: `∑ p, embed[h, p] · (proj[c, p] · scale)`. The two agree when
  the table, the projection and the scale are real numbers, which is the precondition: distributivity and associativity
  in the reals. The three frames: the two kernel programs by the pipeline's frame run over the body's triple, the
  reference by its run with the result dropped. The ideal pass rewrote nothing, so `preserves` is `True`.
-/
import proofs.«405215_j39943195853444_3_alg».proof.Defs
import proofs.«405215_j39943195853444_3_alg».proof.Proof.Gen.Kernel
import proofs.«405215_j39943195853444_3_alg».proof.Proof.Gen.KernelIdeal
import proofs.«405215_j39943195853444_3_alg».proof.Proof.Gen.ReferenceIdeal
import proofs.«405215_j39943195853444_3_alg».proof.Proof.Gen.Pre_finite_inputs
import proofs.«405215_j39943195853444_3_alg».proof.Proof.KernelFrame
import proofs.«405215_j39943195853444_3_alg».proof.Proof.KernelIdealFrame
import proofs.«405215_j39943195853444_3_alg».proof.Proof.KernelValue
import proofs.«405215_j39943195853444_3_alg».proof.Proof.RefRun
import proofs.«405215_j39943195853444_3_alg».proof.Proof.RefValue
import proofs.«405215_j39943195853444_3_alg».proof.Proof.FiniteAlgebra
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Fr.frame m ρ

/-- The idealized kernel program likewise. -/
theorem frame_kernel_ideal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with `G` of the kernel's arguments: the kernel at its own arrangement, which is `G` on the real
    arguments the precondition grants; the reference at its composed term, which is `G` index by index, of arguments that
    agree with the kernel's. -/
theorem algebraic : Cert.algebraic_KernelIdeal_ReferenceIdeal := by
  intro m ρ m' ρ' hpre hagree
  refine ⟨fun c => BigramGather.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.KValue.run m ρ)
    obtain ⟨he, hw, hs⟩ := BigramGather.finite_of_pre _ _ _ _ (hpre c)
    exact BigramGather.Gk_eq_G _ _ _ _ he hw hs
  · refine (θ_run Cert.ReferenceIdeal.defs _ _).mono (fun r h c => ⟨(h c).1.trans ?_, (h c).2⟩)
      (Cert.ReferenceIdeal.RefRun.run (F := Ideal) m' ρ')
    rw [BigramGather.refOut_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
